-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v12_0)) (v1 : (c : Dev Cert.KernelIdeal.nD) → Buf (Elt Ideal) ((c.tc : Thread Cert.KernelIdeal.nD Cert.KernelIdeal.τ).loc Cert.KernelIdeal.main_v12_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v12_0) = v0 c
          ∧ r.2.mem ((c.tc : Thread Cert.KernelIdeal.nD Cert.KernelIdeal.τ).loc Cert.KernelIdeal.main_v12_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v46) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S_ : Shape := ⟨0, ![]⟩

class Facts : Prop where
  bcast_S_S65536x64 : S_.BroadcastsInDim S65536x64 (![] : Fin 0 → Fin S65536x64.rank)
  reducesTo_S65536x64_S_d0_1 : S65536x64.ReducesTo [0, 1] S_
  h_S_ : 0 < S_.numel
  bcast_S_S65536x16 : S_.BroadcastsInDim S65536x16 (![] : Fin 0 → Fin S65536x16.rank)
  reducesTo_S65536x16_S_d0_1 : S65536x16.ReducesTo [0, 1] S_
  bcast_S_S256x64 : S_.BroadcastsInDim S256x64 (![] : Fin 0 → Fin S256x64.rank)
  reducesTo_S256x64_S_d0_1 : S256x64.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S16x256 : S_.BroadcastsInDim S16x256 (![] : Fin 0 → Fin S16x256.rank)
  reducesTo_S16x256_S_d0_1 : S16x256.ReducesTo [0, 1] S_
  bcast_S_S16 : S_.BroadcastsInDim S16 (![] : Fin 0 → Fin S16.rank)
  reducesTo_S16_S_d0 : S16.ReducesTo [0] S_

variable [Facts]

def fn_part2 {F : FTy → Type} [FloatOps F] (main_arg7 : FVec F S16 .f32) (main_arg8 : FVec F S16x256 .f32) (main_arg9 : FVec F S16 .f32) (main_v33 : IVec S_ 1) : IVec S_ 1 :=
  let main_v34 : FVec F S16 .f32 := Host.absf main_arg7
  let main_cst_12 : FVec F S_ .f32 := constant S_ .f32 0x7F800000#32
  let main_v35 : FVec F S16 .f32 := broadcastInDim S16 ![] bcast_S_S16 main_cst_12
  let main_v36 : IVec S16 1 := cmpf .olt main_v34 main_v35
  let main_c_13 : IVec S_ 1 := constantI S_ 1 1#1
  let main_v37 : IVec S_ 1 := (fun x v => Host.reduce IntOp.andi x v reducesTo_S16_S_d0 h_S_) main_v36 main_c_13
  let main_v38 : IVec S_ 1 := andi main_v33 main_v37
  let main_v39 : FVec F S16x256 .f32 := Host.absf main_arg8
  let main_cst_14 : FVec F S_ .f32 := constant S_ .f32 0x7F800000#32
  let main_v40 : FVec F S16x256 .f32 := broadcastInDim S16x256 ![] bcast_S_S16x256 main_cst_14
  let main_v41 : IVec S16x256 1 := cmpf .olt main_v39 main_v40
  let main_c_15 : IVec S_ 1 := constantI S_ 1 1#1
  let main_v42 : IVec S_ 1 := (fun x v => Host.reduce IntOp.andi x v reducesTo_S16x256_S_d0_1 h_S_) main_v41 main_c_15
  let main_v43 : IVec S_ 1 := andi main_v38 main_v42
  let main_v44 : FVec F S16 .f32 := Host.absf main_arg9
  let main_cst_16 : FVec F S_ .f32 := constant S_ .f32 0x7F800000#32
  let main_v45 : FVec F S16 .f32 := broadcastInDim S16 ![] bcast_S_S16 main_cst_16
  let main_v46 : IVec S16 1 := cmpf .olt main_v44 main_v45
  let main_c_17 : IVec S_ 1 := constantI S_ 1 1#1
  let main_v47 : IVec S_ 1 := (fun x v => Host.reduce IntOp.andi x v reducesTo_S16_S_d0 h_S_) main_v46 main_c_17
  let main_v48 : IVec S_ 1 := andi main_v43 main_v47
  main_v48

def fn_part1 {F : FTy → Type} [FloatOps F] (main_arg4 : FVec F S256x256 .f32) (main_arg5 : FVec F S256 .f32) (main_arg6 : FVec F S16x256 .f32) (main_arg7 : FVec F S16 .f32) (main_arg8 : FVec F S16x256 .f32) (main_arg9 : FVec F S16 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg4
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg5
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S16x256 .f32 := Host.absf main_arg6
  let main_cst_10 : FVec F S_ .f32 := constant S_ .f32 0x7F800000#32
  let main_v30 : FVec F S16x256 .f32 := broadcastInDim S16x256 ![] bcast_S_S16x256 main_cst_10
  let main_v31 : IVec S16x256 1 := cmpf .olt main_v29 main_v30
  let main_c_11 : IVec S_ 1 := constantI S_ 1 1#1
  let main_v32 : IVec S_ 1 := (fun x v => Host.reduce IntOp.andi x v reducesTo_S16x256_S_d0_1 h_S_) main_v31 main_c_11
  let main_v33 : IVec S_ 1 := andi main_v28 main_v32
  fn_part2 (F := F) main_arg7 main_arg8 main_arg9 main_v33

def fn {F : FTy → Type} [FloatOps F] (main_arg0 : FVec F S65536x64 .f32) (main_arg1 : FVec F S65536x16 .f32) (main_arg2 : FVec F S256x64 .f32) (main_arg3 : FVec F S256 .f32) (main_arg4 : FVec F S256x256 .f32) (main_arg5 : FVec F S256 .f32) (main_arg6 : FVec F S16x256 .f32) (main_arg7 : FVec F S16 .f32) (main_arg8 : FVec F S16x256 .f32) (main_arg9 : FVec F S16 .f32) : IVec S_ 1 :=
  let main_v0 : FVec F S65536x64 .f32 := Host.absf main_arg0
  let main_cst : FVec F S_ .f32 := constant S_ .f32 0x7F800000#32
  let main_v1 : FVec F S65536x64 .f32 := broadcastInDim S65536x64 ![] bcast_S_S65536x64 main_cst
  let main_v2 : IVec S65536x64 1 := cmpf .olt main_v0 main_v1
  let main_c : IVec S_ 1 := constantI S_ 1 1#1
  let main_v3 : IVec S_ 1 := (fun x v => Host.reduce IntOp.andi x v reducesTo_S65536x64_S_d0_1 h_S_) main_v2 main_c
  let main_v4 : FVec F S65536x16 .f32 := Host.absf main_arg1
  let main_cst_0 : FVec F S_ .f32 := constant S_ .f32 0x7F800000#32
  let main_v5 : FVec F S65536x16 .f32 := broadcastInDim S65536x16 ![] bcast_S_S65536x16 main_cst_0
  let main_v6 : IVec S65536x16 1 := cmpf .olt main_v4 main_v5
  let main_c_1 : IVec S_ 1 := constantI S_ 1 1#1
  let main_v7 : IVec S_ 1 := (fun x v => Host.reduce IntOp.andi x v reducesTo_S65536x16_S_d0_1 h_S_) main_v6 main_c_1
  let main_v8 : IVec S_ 1 := andi main_v3 main_v7
  let main_v9 : FVec F S256x64 .f32 := Host.absf main_arg2
  let main_cst_2 : FVec F S_ .f32 := constant S_ .f32 0x7F800000#32
  let main_v10 : FVec F S256x64 .f32 := broadcastInDim S256x64 ![] bcast_S_S256x64 main_cst_2
  let main_v11 : IVec S256x64 1 := cmpf .olt main_v9 main_v10
  let main_c_3 : IVec S_ 1 := constantI S_ 1 1#1
  let main_v12 : IVec S_ 1 := (fun x v => Host.reduce IntOp.andi x v reducesTo_S256x64_S_d0_1 h_S_) main_v11 main_c_3
  let main_v13 : IVec S_ 1 := andi main_v8 main_v12
  let main_v14 : FVec F S256 .f32 := Host.absf main_arg3
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg4 main_arg5 main_arg6 main_arg7 main_arg8 main_arg9 main_v13 main_v16
-- ==== Kernel.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S64x256 : Shape := ⟨2, ![64, 256]⟩
abbrev S256x16 : Shape := ⟨2, ![256, 16]⟩
abbrev S1x256 : Shape := ⟨2, ![1, 256]⟩
abbrev S1x16 : Shape := ⟨2, ![1, 16]⟩
abbrev S65536x1 : Shape := ⟨2, ![65536, 1]⟩
abbrev S2048x64 : Shape := ⟨2, ![2048, 64]⟩
abbrev S2048x16 : Shape := ⟨2, ![2048, 16]⟩
abbrev S2048x1 : Shape := ⟨2, ![2048, 1]⟩
abbrev S2048x256 : Shape := ⟨2, ![2048, 256]⟩
abbrev S2048 : Shape := ⟨1, ![2048]⟩

abbrev nBuf : Space → Nat
  | .hbm => 24
  | .vmem => 16
  | .smem => 0
  | _ => 0

abbrev bufTy : (tb : Table) → Fin (tcTables nBuf tb) → BufTy
  | .hbm, ⟨0, _⟩ => ⟨S65536x64, .f32⟩
  | .hbm, ⟨1, _⟩ => ⟨S65536x16, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x256, .f32⟩
  | .hbm, ⟨7, _⟩ => ⟨S16, .f32⟩
  | .hbm, ⟨8, _⟩ => ⟨S16x256, .f32⟩
  | .hbm, ⟨9, _⟩ => ⟨S16, .f32⟩
  | .hbm, ⟨10, _⟩ => ⟨S64x256, .f32⟩
  | .hbm, ⟨11, _⟩ => ⟨S64x256, .bf16⟩
  | .hbm, ⟨12, _⟩ => ⟨S256x256, .f32⟩
  | .hbm, ⟨13, _⟩ => ⟨S256x256, .bf16⟩
  | .hbm, ⟨14, _⟩ => ⟨S256x16, .f32⟩
  | .hbm, ⟨15, _⟩ => ⟨S256x16, .bf16⟩
  | .hbm, ⟨16, _⟩ => ⟨S256x16, .f32⟩
  | .hbm, ⟨17, _⟩ => ⟨S256x16, .bf16⟩
  | .hbm, ⟨18, _⟩ => ⟨S1x256, .f32⟩
  | .hbm, ⟨19, _⟩ => ⟨S1x256, .f32⟩
  | .hbm, ⟨20, _⟩ => ⟨S1x16, .f32⟩
  | .hbm, ⟨21, _⟩ => ⟨S1x16, .f32⟩
  | .hbm, ⟨22, _⟩ => ⟨S65536x16, .f32⟩
  | .hbm, ⟨23, _⟩ => ⟨S65536x1, .f32⟩
  | .local _ .vmem, ⟨0, _⟩ => ⟨S2048x64, .f32⟩
  | .local _ .vmem, ⟨1, _⟩ => ⟨S2048x64, .f32⟩
  | .local _ .vmem, ⟨2, _⟩ => ⟨S2048x16, .f32⟩
  | .local _ .vmem, ⟨3, _⟩ => ⟨S2048x16, .f32⟩
  | .local _ .vmem, ⟨4, _⟩ => ⟨S64x256, .bf16⟩
  | .local _ .vmem, ⟨5, _⟩ => ⟨S1x256, .f32⟩
  | .local _ .vmem, ⟨6, _⟩ => ⟨S256x256, .bf16⟩
  | .local _ .vmem, ⟨7, _⟩ => ⟨S1x256, .f32⟩
  | .local _ .vmem, ⟨8, _⟩ => ⟨S256x16, .bf16⟩
  | .local _ .vmem, ⟨9, _⟩ => ⟨S1x16, .f32⟩
  | .local _ .vmem, ⟨10, _⟩ => ⟨S256x16, .bf16⟩
  | .local _ .vmem, ⟨11, _⟩ => ⟨S1x16, .f32⟩
  | .local _ .vmem, ⟨12, _⟩ => ⟨S2048x16, .f32⟩
  | .local _ .vmem, ⟨13, _⟩ => ⟨S2048x16, .f32⟩
  | .local _ .vmem, ⟨14, _⟩ => ⟨S2048x1, .f32⟩
  | .local _ .vmem, ⟨15, _⟩ => ⟨S2048x1, .f32⟩
  | _, _ => ⟨S65536x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12_0 : Ref sig .tc := ⟨.hbm, 22, rfl⟩
abbrev main_v12_1 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x16 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x16 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x16 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x16 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S2048x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S2048x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

class Facts₀ : Prop where
  transposes_S256x64_S64x256_1_0 : S256x64.Transposes [1, 0] S64x256
  bitsLt_bf16_f32 : FTy.bits .bf16 < FTy.bits .f32
  transposes_S256x256_S256x256_1_0 : S256x256.Transposes [1, 0] S256x256
  transposes_S16x256_S256x16_1_0 : S16x256.Transposes [1, 0] S256x16
  shapeCasts_S256_S1x256 : S256.ShapeCasts S1x256
  shapeCasts_S16_S1x16 : S16.ShapeCasts S1x16
  inb_S2048x64_S2048x64_0_0 : ∀ a, (![0, 0] : Fin 2 → Nat) a + S2048x64.size a ≤ S2048x64.size a
  h_S2048x64 : 0 < S2048x64.numel
  inb_S2048x16_S2048x16_0_0 : ∀ a, (![0, 0] : Fin 2 → Nat) a + S2048x16.size a ≤ S2048x16.size a
  h_S2048x16 : 0 < S2048x16.numel
  inb_S64x256_S64x256_0_0 : ∀ a, (![0, 0] : Fin 2 → Nat) a + S64x256.size a ≤ S64x256.size a
  h_S64x256 : 0 < S64x256.numel
  shapeCasts_S64x256_S64x256 : S64x256.ShapeCasts S64x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2048x256 : S1x256.Broadcasts S2048x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  inb_S256x16_S256x16_0_0 : ∀ a, (![0, 0] : Fin 2 → Nat) a + S256x16.size a ≤ S256x16.size a
  h_S256x16 : 0 < S256x16.numel
  shapeCasts_S256x16_S256x16 : S256x16.ShapeCasts S256x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S2048x16 : S1x16.Broadcasts S2048x16
  reduces_S2048x16_S2048 : S2048x16.Reduces [1] S2048
  shapeCasts_S2048_S2048x1 : S2048.ShapeCasts S2048x1
  inb_S2048x1_S2048x1_0_0 : ∀ a, (![0, 0] : Fin 2 → Nat) a + S2048x1.size a ≤ S2048x1.size a
  h_S2048x1 : 0 < S2048x1.numel
  dot_S2048x64_S64x256_S2048x256_1_0_0_1_n_n_wf : DotDims.WF S2048x64 S64x256 S2048x256 [1] [0] [0] [1] [] []
  dot_S2048x256_S256x256_S2048x256_1_0_0_1_n_n_wf : DotDims.WF S2048x256 S256x256 S2048x256 [1] [0] [0] [1] [] []
  dot_S2048x256_S256x16_S2048x16_1_0_0_1_n_n_wf : DotDims.WF S2048x256 S256x16 S2048x16 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S65536x64.size a
  hwx0_0 : ∀ i : grid0.Coords, EltTy.bits .f32 = 32 ∨ (Rect.block (s := S65536x64) S2048x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x16.size a ≤ S65536x16.size a
  hwx0_1 : ∀ i : grid0.Coords, EltTy.bits .f32 = 32 ∨ (Rect.block (s := S65536x16) S2048x16.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x256.size a ≤ S64x256.size a
  hwx0_2 : ∀ i : grid0.Coords, EltTy.bits .bf16 = 32 ∨ (Rect.block (s := S64x256) S64x256.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256x256.size a ≤ S256x256.size a
  hwx0_4 : ∀ i : grid0.Coords, EltTy.bits .bf16 = 32 ∨ (Rect.block (s := S256x256) S256x256.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x256.size a ≤ S1x256.size a
  hwx0_5 : ∀ i : grid0.Coords, EltTy.bits .f32 = 32 ∨ (Rect.block (s := S1x256) S1x256.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x16.size a ≤ S256x16.size a
  hwx0_6 : ∀ i : grid0.Coords, EltTy.bits .bf16 = 32 ∨ (Rect.block (s := S256x16) S256x16.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x16.size a ≤ S1x16.size a
  hwx0_7 : ∀ i : grid0.Coords, EltTy.bits .f32 = 32 ∨ (Rect.block (s := S1x16) S1x16.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S256x16.size a ≤ S256x16.size a
  hwx0_8 : ∀ i : grid0.Coords, EltTy.bits .bf16 = 32 ∨ (Rect.block (s := S256x16) S256x16.size (cc0_transform_8 i) (hinb0_8 i)).WholeWords (EltTy.packing .bf16)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x16.size a ≤ S1x16.size a
  hwx0_9 : ∀ i : grid0.Coords, EltTy.bits .f32 = 32 ∨ (Rect.block (s := S1x16) S1x16.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S2048x16.size a ≤ S65536x16.size a
  hwx0_10 : ∀ i : grid0.Coords, EltTy.bits .f32 = 32 ∨ (Rect.block (s := S65536x16) S2048x16.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S2048x1.size a ≤ S65536x1.size a
  hwx0_11 : ∀ i : grid0.Coords, EltTy.bits .f32 = 32 ∨ (Rect.block (s := S65536x1) S2048x1.size (cc0_transform_11 i) (hinb0_11 i)).WholeWords (EltTy.packing .f32)

variable [Facts₀]

def dot_S2048x64_S64x256_S2048x256_1_0_0_1_n_n : DotDims S2048x64 S64x256 S2048x256 where
  lhsContracting := [1]
  rhsContracting := [0]
  lhsNonContracting := [0]
  rhsNonContracting := [1]
  lhsBatch := []
  rhsBatch := []
  wf := dot_S2048x64_S64x256_S2048x256_1_0_0_1_n_n_wf
def dot_S2048x256_S256x256_S2048x256_1_0_0_1_n_n : DotDims S2048x256 S256x256 S2048x256 where
  lhsContracting := [1]
  rhsContracting := [0]
  lhsNonContracting := [0]
  rhsNonContracting := [1]
  lhsBatch := []
  rhsBatch := []
  wf := dot_S2048x256_S256x256_S2048x256_1_0_0_1_n_n_wf
def dot_S2048x256_S256x16_S2048x16_1_0_0_1_n_n : DotDims S2048x256 S256x16 S2048x16 where
  lhsContracting := [1]
  rhsContracting := [0]
  lhsNonContracting := [0]
  rhsNonContracting := [1]
  lhsBatch := []
  rhsBatch := []
  wf := dot_S2048x256_S256x16_S2048x16_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2048x16.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S64x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v3) S256x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v9) S1x256.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v5) S256x16.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v10) S1x16.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v7) S256x16.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v11) S1x16.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v12_0) S2048x16.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v12_1) S2048x1.size cc0_transform_11 reads0_11 true false 2 stage0_11 sem0_11
    hrank0 hreads0_11 hinb0_11 nbuf0_11 (Memref.isWhole_whole _) hwx0_11 hstage0_11

abbrev win0 : Fin 12 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | ⟨_ + 12, h⟩ => absurd h (Nat.not_lt.2 (Nat.le_add_left _ _))
abbrev spec0 : Fin 12 → Pipeline.WinSpec sig grid0.rank := fun w => (win0 w).toWinSpec

class Facts : Prop extends Facts₀ where

variable [Facts]
-- ==== ReferenceIdeal.lean ====
abbrev S65536x64 : Shape := ⟨2, ![65536, 64]⟩
abbrev S65536x16 : Shape := ⟨2, ![65536, 16]⟩
abbrev S256x64 : Shape := ⟨2, ![256, 64]⟩
abbrev S256 : Shape := ⟨1, ![256]⟩
abbrev S256x256 : Shape := ⟨2, ![256, 256]⟩
abbrev S16x256 : Shape := ⟨2, ![16, 256]⟩
abbrev S16 : Shape := ⟨1, ![16]⟩
abbrev S64x256 : Shape := ⟨2, ![64, 256]⟩
abbrev S65536x256 : Shape := ⟨2, ![65536, 256]⟩
abbrev S1x256 : Shape := ⟨2, ![1, 256]⟩
abbrev S_ : Shape := ⟨0, ![]⟩
abbrev S256x16 : Shape := ⟨2, ![256, 16]⟩
abbrev S1x16 : Shape := ⟨2, ![1, 16]⟩
abbrev S65536 : Shape := ⟨1, ![65536]⟩
abbrev S65536x1 : Shape := ⟨2, ![65536, 1]⟩

abbrev nBuf : Space → Nat
  | .hbm => 83
  | .vmem => 0
  | .smem => 0
  | _ => 0

abbrev bufTy : (tb : Table) → Fin (tcTables nBuf tb) → BufTy
  | .hbm, ⟨0, _⟩ => ⟨S65536x64, .f32⟩
  | .hbm, ⟨1, _⟩ => ⟨S65536x16, .f32⟩
  | .hbm, ⟨2, _⟩ => ⟨S256x64, .f32⟩
  | .hbm, ⟨3, _⟩ => ⟨S256, .f32⟩
  | .hbm, ⟨4, _⟩ => ⟨S256x256, .f32⟩
  | .hbm, ⟨5, _⟩ => ⟨S256, .f32⟩
  | .hbm, ⟨6, _⟩ => ⟨S16x256, .f32⟩
  | .hbm, ⟨7, _⟩ => ⟨S16, .f32⟩
  | .hbm, ⟨8, _⟩ => ⟨S16x256, .f32⟩
  | .hbm, ⟨9, _⟩ => ⟨S16, .f32⟩
  | .hbm, ⟨10, _⟩ => ⟨S64x256, .f32⟩
  | .hbm, ⟨11, _⟩ => ⟨S65536x256, .f32⟩
  | .hbm, ⟨12, _⟩ => ⟨S1x256, .f32⟩
  | .hbm, ⟨13, _⟩ => ⟨S65536x256, .f32⟩
  | .hbm, ⟨14, _⟩ => ⟨S65536x256, .f32⟩
  | .hbm, ⟨15, _⟩ => ⟨S_, .f32⟩
  | .hbm, ⟨16, _⟩ => ⟨S65536x256, .f32⟩
  | .hbm, ⟨17, _⟩ => ⟨S65536x256, .f32⟩
  | .hbm, ⟨18, _⟩ => ⟨S256x256, .f32⟩
  | .hbm, ⟨19, _⟩ => ⟨S65536x256, .f32⟩
  | .hbm, ⟨20, _⟩ => ⟨S1x256, .f32⟩
  | .hbm, ⟨21, _⟩ => ⟨S65536x256, .f32⟩
  | .hbm, ⟨22, _⟩ => ⟨S65536x256, .f32⟩
  | .hbm, ⟨23, _⟩ => ⟨S_, .f32⟩
  | .hbm, ⟨24, _⟩ => ⟨S65536x256, .f32⟩
  | .hbm, ⟨25, _⟩ => ⟨S65536x256, .f32⟩
  | .hbm, ⟨26, _⟩ => ⟨S256x16, .f32⟩
  | .hbm, ⟨27, _⟩ => ⟨S65536x16, .f32⟩
  | .hbm, ⟨28, _⟩ => ⟨S1x16, .f32⟩
  | .hbm, ⟨29, _⟩ => ⟨S65536x16, .f32⟩
  | .hbm, ⟨30, _⟩ => ⟨S65536x16, .f32⟩
  | .hbm, ⟨31, _⟩ => ⟨S65536x16, .f32⟩
  | .hbm, ⟨32, _⟩ => ⟨S_, .f32⟩
  | .hbm, ⟨33, _⟩ => ⟨S65536x16, .f32⟩
  | .hbm, ⟨34, _⟩ => ⟨S65536x16, .f32⟩
  | .hbm, ⟨35, _⟩ => ⟨S_, .f32⟩
  | .hbm, ⟨36, _⟩ => ⟨S65536x16, .f32⟩
  | .hbm, ⟨37, _⟩ => ⟨S65536x16, .f32⟩
  | .hbm, ⟨38, _⟩ => ⟨S_, .f32⟩
  | .hbm, ⟨39, _⟩ => ⟨S65536x16, .f32⟩
  | .hbm, ⟨40, _⟩ => ⟨S65536x16, .f32⟩
  | .hbm, ⟨41, _⟩ => ⟨S_, .f32⟩
  | .hbm, ⟨42, _⟩ => ⟨S65536x16, .f32⟩
  | .hbm, ⟨43, _⟩ => ⟨S65536x16, .f32⟩
  | .hbm, ⟨44, _⟩ => ⟨S256x16, .f32⟩
  | .hbm, ⟨45, _⟩ => ⟨S65536x16, .f32⟩
  | .hbm, ⟨46, _⟩ => ⟨S1x16, .f32⟩
  | .hbm, ⟨47, _⟩ => ⟨S65536x16, .f32⟩
  | .hbm, ⟨48, _⟩ => ⟨S65536x16, .f32⟩
  | .hbm, ⟨49, _⟩ => ⟨S_, .f32⟩
  | .hbm, ⟨50, _⟩ => ⟨S65536x16, .f32⟩
  | .hbm, ⟨51, _⟩ => ⟨S65536x16, .f32⟩
  | .hbm, ⟨52, _⟩ => ⟨S65536x16, .f32⟩
  | .hbm, ⟨53, _⟩ => ⟨S65536x16, .f32⟩
  | .hbm, ⟨54, _⟩ => ⟨S65536x16, .i1⟩
  | .hbm, ⟨55, _⟩ => ⟨S65536x16, .f32⟩
  | .hbm, ⟨56, _⟩ => ⟨S65536x16, .f32⟩
  | .hbm, ⟨57, _⟩ => ⟨S65536x16, .f32⟩
  | .hbm, ⟨58, _⟩ => ⟨S65536x16, .f32⟩
  | .hbm, ⟨59, _⟩ => ⟨S65536x16, .f32⟩
  | .hbm, ⟨60, _⟩ => ⟨S65536x16, .f32⟩
  | .hbm, ⟨61, _⟩ => ⟨S65536x16, .f32⟩
  | .hbm, ⟨62, _⟩ => ⟨S65536x16, .f32⟩
  | .hbm, ⟨63, _⟩ => ⟨S_, .f32⟩
  | .hbm, ⟨64, _⟩ => ⟨S65536x16, .f32⟩
  | .hbm, ⟨65, _⟩ => ⟨S65536x16, .f32⟩
  | .hbm, ⟨66, _⟩ => ⟨S65536x16, .f32⟩
  | .hbm, ⟨67, _⟩ => ⟨S65536x16, .f32⟩
  | .hbm, ⟨68, _⟩ => ⟨S65536x16, .f32⟩
  | .hbm, ⟨69, _⟩ => ⟨S65536x16, .f32⟩
  | .hbm, ⟨70, _⟩ => ⟨S_, .f32⟩
  | .hbm, ⟨71, _⟩ => ⟨S65536x16, .f32⟩
  | .hbm, ⟨72, _⟩ => ⟨S65536x16, .f32⟩
  | .hbm, ⟨73, _⟩ => ⟨S65536x16, .f32⟩
  | .hbm, ⟨74, _⟩ => ⟨S_, .f32⟩
  | .hbm, ⟨75, _⟩ => ⟨S65536, .f32⟩
  | .hbm, ⟨76, _⟩ => ⟨S_, .f32⟩
  | .hbm, ⟨77, _⟩ => ⟨S65536, .f32⟩
  | .hbm, ⟨78, _⟩ => ⟨S65536, .f32⟩
  | .hbm, ⟨79, _⟩ => ⟨S_, .f32⟩
  | .hbm, ⟨80, _⟩ => ⟨S65536, .f32⟩
  | .hbm, ⟨81, _⟩ => ⟨S65536, .f32⟩
  | .hbm, ⟨82, _⟩ => ⟨S65536x1, .f32⟩
  | _, _ => ⟨S65536x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_call0_cst : Ref sig .tc := ⟨.hbm, 15, rfl⟩
abbrev main_call0_v0 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_call1_cst : Ref sig .tc := ⟨.hbm, 23, rfl⟩
abbrev main_call1_v0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst : Ref sig .tc := ⟨.hbm, 32, rfl⟩
abbrev main_v18 : Ref sig .tc := ⟨.hbm, 33, rfl⟩
abbrev main_v19 : Ref sig .tc := ⟨.hbm, 34, rfl⟩
abbrev main_cst_0 : Ref sig .tc := ⟨.hbm, 35, rfl⟩
abbrev main_v20 : Ref sig .tc := ⟨.hbm, 36, rfl⟩
abbrev main_v21 : Ref sig .tc := ⟨.hbm, 37, rfl⟩
abbrev main_cst_1 : Ref sig .tc := ⟨.hbm, 38, rfl⟩
abbrev main_v22 : Ref sig .tc := ⟨.hbm, 39, rfl⟩
abbrev main_v23 : Ref sig .tc := ⟨.hbm, 40, rfl⟩
abbrev main_cst_2 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_call2_cst : Ref sig .tc := ⟨.hbm, 49, rfl⟩
abbrev main_call2_v0 : Ref sig .tc := ⟨.hbm, 50, rfl⟩
abbrev main_call2_v1 : Ref sig .tc := ⟨.hbm, 51, rfl⟩
abbrev main_call2_v2 : Ref sig .tc := ⟨.hbm, 52, rfl⟩
abbrev main_call2_v3 : Ref sig .tc := ⟨.hbm, 53, rfl⟩
abbrev main_call2_v4 : Ref sig .tc := ⟨.hbm, 54, rfl⟩
abbrev main_call2_v5 : Ref sig .tc := ⟨.hbm, 55, rfl⟩
abbrev main_call2_v6 : Ref sig .tc := ⟨.hbm, 56, rfl⟩
abbrev main_call2_v7 : Ref sig .tc := ⟨.hbm, 57, rfl⟩
abbrev main_call2_v8 : Ref sig .tc := ⟨.hbm, 58, rfl⟩
abbrev main_call2_v9 : Ref sig .tc := ⟨.hbm, 59, rfl⟩
abbrev main_call2_v10 : Ref sig .tc := ⟨.hbm, 60, rfl⟩
abbrev main_call2_v11 : Ref sig .tc := ⟨.hbm, 61, rfl⟩
abbrev main_v31 : Ref sig .tc := ⟨.hbm, 62, rfl⟩
abbrev main_cst_3 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_cst_4 : Ref sig .tc := ⟨.hbm, 70, rfl⟩
abbrev main_v38 : Ref sig .tc := ⟨.hbm, 71, rfl⟩
abbrev main_v39 : Ref sig .tc := ⟨.hbm, 72, rfl⟩
abbrev main_v40 : Ref sig .tc := ⟨.hbm, 73, rfl⟩
abbrev main_cst_5 : Ref sig .tc := ⟨.hbm, 74, rfl⟩
abbrev main_v41 : Ref sig .tc := ⟨.hbm, 75, rfl⟩
abbrev main_cst_6 : Ref sig .tc := ⟨.hbm, 76, rfl⟩
abbrev main_v42 : Ref sig .tc := ⟨.hbm, 77, rfl⟩
abbrev main_v43 : Ref sig .tc := ⟨.hbm, 78, rfl⟩
abbrev main_cst_7 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  transposes_S256x64_S64x256_1_0 : S256x64.Transposes [1, 0] S64x256
  bcast_S256_S1x256_1 : S256.BroadcastsInDim S1x256 (![1] : Fin 1 → Fin S1x256.rank)
  bcast_S1x256_S65536x256_0_1 : S1x256.BroadcastsInDim S65536x256 (![0, 1] : Fin 2 → Fin S65536x256.rank)
  bcast_S_S65536x256 : S_.BroadcastsInDim S65536x256 (![] : Fin 0 → Fin S65536x256.rank)
  transposes_S256x256_S256x256_1_0 : S256x256.Transposes [1, 0] S256x256
  transposes_S16x256_S256x16_1_0 : S16x256.Transposes [1, 0] S256x16
  bcast_S16_S1x16_1 : S16.BroadcastsInDim S1x16 (![1] : Fin 1 → Fin S1x16.rank)
  bcast_S1x16_S65536x16_0_1 : S1x16.BroadcastsInDim S65536x16 (![0, 1] : Fin 2 → Fin S65536x16.rank)
  bcast_S_S65536x16 : S_.BroadcastsInDim S65536x16 (![] : Fin 0 → Fin S65536x16.rank)
  reducesTo_S65536x16_S65536_d1 : S65536x16.ReducesTo [1] S65536
  h_S_ : 0 < S_.numel
  bcast_S_S65536 : S_.BroadcastsInDim S65536 (![] : Fin 0 → Fin S65536.rank)
  shapeCasts_S65536_S65536x1 : S65536.ShapeCasts S65536x1
  dot_S65536x64_S64x256_S65536x256_1_0_0_1_n_n_wf : DotDims.WF S65536x64 S64x256 S65536x256 [1] [0] [0] [1] [] []
  dot_S65536x256_S256x256_S65536x256_1_0_0_1_n_n_wf : DotDims.WF S65536x256 S256x256 S65536x256 [1] [0] [0] [1] [] []
  dot_S65536x256_S256x16_S65536x16_1_0_0_1_n_n_wf : DotDims.WF S65536x256 S256x16 S65536x16 [1] [0] [0] [1] [] []

variable [Facts₀]

def dot_S65536x64_S64x256_S65536x256_1_0_0_1_n_n : DotDims S65536x64 S64x256 S65536x256 where
  lhsContracting := [1]
  rhsContracting := [0]
  lhsNonContracting := [0]
  rhsNonContracting := [1]
  lhsBatch := []
  rhsBatch := []
  wf := dot_S65536x64_S64x256_S65536x256_1_0_0_1_n_n_wf
def dot_S65536x256_S256x256_S65536x256_1_0_0_1_n_n : DotDims S65536x256 S256x256 S65536x256 where
  lhsContracting := [1]
  rhsContracting := [0]
  lhsNonContracting := [0]
  rhsNonContracting := [1]
  lhsBatch := []
  rhsBatch := []
  wf := dot_S65536x256_S256x256_S65536x256_1_0_0_1_n_n_wf
def dot_S65536x256_S256x16_S65536x16_1_0_0_1_n_n : DotDims S65536x256 S256x16 S65536x16 where
  lhsContracting := [1]
  rhsContracting := [0]
  lhsNonContracting := [0]
  rhsNonContracting := [1]
  lhsBatch := []
  rhsBatch := []
  wf := dot_S65536x256_S256x16_S65536x16_1_0_0_1_n_n_wf

class Facts : Prop extends Facts₀ where

variable [Facts]
-- ==== Proof.Spec.lean ====
/-
  A Gaussian policy head, one row at a time.

  A row of observations x ∈ ℝ^64 passes through two ReLU layers of width 256. Two linear heads of width 16 read the
  second layer: the mean is -1 + (½ · (tanh u + 1)) · 2, and the standard deviation is softplus v + ε, where
  softplus z = max z 0 + log1p (exp (-|z - 0|)). With the row's noise e ∈ ℝ^16 the sample is mean + std · e and its
  log-density is -½ · ∑ₐ (eₐ² + 2 · log stdₐ) - C. Every quantity is an extended real; the float literals stay the words
  both programs print (only the zero word is ever evaluated).
-/
import Idealize.ShloMosaic.PureOps.Ideal
import Idealize.ShloMosaic.PureOps.Ideal.Laws
import Idealize.ShloMosaic.Lib.ValueIdx

noncomputable section

namespace Cert.Policy

open Idealize.ShloMosaic

/-- The network's weights, each as a function of (output unit, input unit), and its biases. -/
structure Net where
  w1 : Fin 256 → Fin 64 → EReal
  c1 : Fin 256 → EReal
  w2 : Fin 256 → Fin 256 → EReal
  c2 : Fin 256 → EReal
  wm : Fin 16 → Fin 256 → EReal
  cm : Fin 16 → EReal
  ws : Fin 16 → Fin 256 → EReal
  cs : Fin 16 → EReal

/-- An f32 word read as the extended real it denotes. -/
abbrev lit (b : BitVec 32) : EReal := Ideal.ofBits .f32 b

/-- softplus z = max z 0 + log1p (exp (-|z - 0|)), with |y| = max y (-y). -/
def softplus (z : EReal) : EReal :=
  max z (lit 0x00000000#32)
    + Ideal.log1p (Ideal.exp (-(max (z - lit 0x00000000#32) (-(z - lit 0x00000000#32)))))

/-- Nothing differs from itself: the comparison "y ≠ y", ordered or unordered, answers 0. -/
theorem cmp_one_self (y : EReal) : Ideal.cmp .one y y = 0#1 := by simp [Ideal.cmp]

theorem cmp_une_self (y : EReal) : Ideal.cmp .une y y = 0#1 := by simp [Ideal.cmp]

/-- 0 - y = -y on the extended reals, with the zero spelt as the f32 zero word. -/
theorem lit_zero_sub (y : EReal) : lit 0x00000000#32 - y = -y := by
  rw [show lit 0x00000000#32 = 0 from Ideal.ofBits_zero_f32, zero_sub]

/-- 0 + s = s, with the zero spelt as the f32 zero word. -/
theorem lit_zero_add (s : EReal) : lit 0x00000000#32 + s = s := by
  rw [show lit 0x00000000#32 = 0 from Ideal.ofBits_zero_f32, zero_add]

namespace Net

variable (θ : Net)

/-- First hidden layer: relu (W₁ x + b₁). -/
def h1 (xr : Fin 64 → EReal) (j : Fin 256) : EReal :=
  max ((∑ k : Fin 64, xr k * θ.w1 j k) + θ.c1 j) (lit 0x00000000#32)

/-- Second hidden layer: relu (W₂ h₁ + b₂). -/
def h2 (xr : Fin 64 → EReal) (j : Fin 256) : EReal :=
  max ((∑ k : Fin 256, θ.h1 xr k * θ.w2 j k) + θ.c2 j) (lit 0x00000000#32)

/-- The mean head: -1 + (½ · (tanh (W_μ h₂ + b_μ) + 1)) · 2. -/
def mean (xr : Fin 64 → EReal) (a : Fin 16) : EReal :=
  lit 0xBF800000#32
    + (lit 0x3F000000#32 * (Ideal.tanh ((∑ k : Fin 256, θ.h2 xr k * θ.wm a k) + θ.cm a) + lit 0x3F800000#32))
      * lit 0x40000000#32

/-- The standard deviation head: softplus (W_σ h₂ + b_σ) + ε. -/
def std (xr : Fin 64 → EReal) (a : Fin 16) : EReal :=
  softplus ((∑ k : Fin 256, θ.h2 xr k * θ.ws a k) + θ.cs a) + lit 0x358637BD#32

/-- The sample: mean + std · noise. -/
def action (xr : Fin 64 → EReal) (er : Fin 16 → EReal) (a : Fin 16) : EReal :=
  θ.mean xr a + θ.std xr a * er a

/-- The sample's log-density: -½ · ∑ₐ (eₐ² + 2 · log stdₐ) - C. -/
def logp (xr : Fin 64 → EReal) (er : Fin 16 → EReal) : EReal :=
  lit 0xBF000000#32 * (∑ a : Fin 16, (er a * er a + lit 0x40000000#32 * Ideal.log (θ.std xr a)))
    - lit 0x416B3F8E#32

end Net

/-! ## The two spellings of softplus

Both programs guard the stable form by "z - 0 differs from itself", which nothing does, and take the guarded branch;
one negates |z - 0|, the other subtracts it from 0. -/

/-- The spelling with a negation and the unordered comparison. -/
theorem softplus_neg (z : EReal) :
    Scalar.select (Ideal.cmp .une (z - lit 0x00000000#32) (z - lit 0x00000000#32)) (z + lit 0x00000000#32)
      (max z (lit 0x00000000#32)
        + Ideal.log1p (Ideal.exp (-(max (z - lit 0x00000000#32) (-(z - lit 0x00000000#32))))))
      = softplus z := by
  rw [cmp_une_self, ValueIdx.select_zero]; rfl

/-- The spelling with a subtraction from zero and the ordered comparison. -/
theorem softplus_sub (z : EReal) :
    Scalar.select (Ideal.cmp .one (z - lit 0x00000000#32) (z - lit 0x00000000#32)) (z + lit 0x00000000#32)
      (max z (lit 0x00000000#32)
        + Ideal.log1p (Ideal.exp (lit 0x00000000#32 - (max (z - lit 0x00000000#32) (-(z - lit 0x00000000#32))))))
      = softplus z := by
  rw [cmp_one_self, ValueIdx.select_zero, lit_zero_sub]; rfl

/-! ## The arrays

The arguments as arrays: observations [65536, 64], noise [65536, 16], each weight matrix stored (output unit, input
unit), each bias by unit. The sample array [65536, 16] and the log-density array [65536, 1] hold, in row r, the row
functions above of row r of the observations and of the noise. -/

open ValueIdx

section Arrays

variable (x : (⟨2, ![65536, 64]⟩ : Shape).Idx → EReal) (e : (⟨2, ![65536, 16]⟩ : Shape).Idx → EReal)
  (W1 : (⟨2, ![256, 64]⟩ : Shape).Idx → EReal) (b1 : (⟨1, ![256]⟩ : Shape).Idx → EReal)
  (W2 : (⟨2, ![256, 256]⟩ : Shape).Idx → EReal) (b2 : (⟨1, ![256]⟩ : Shape).Idx → EReal)
  (Wm : (⟨2, ![16, 256]⟩ : Shape).Idx → EReal) (bm : (⟨1, ![16]⟩ : Shape).Idx → EReal)
  (Ws : (⟨2, ![16, 256]⟩ : Shape).Idx → EReal) (bs : (⟨1, ![16]⟩ : Shape).Idx → EReal)

/-- The network the weight arrays hold. -/
def netOf : Net where
  w1 j k := W1 (ix2 j k)
  c1 j := b1 (ix1 j)
  w2 j k := W2 (ix2 j k)
  c2 j := b2 (ix1 j)
  wm a k := Wm (ix2 a k)
  cm a := bm (ix1 a)
  ws a k := Ws (ix2 a k)
  cs a := bs (ix1 a)

/-- Row r of the observations. -/
def rowOf (r : Fin 65536) : Fin 64 → EReal := fun k => x (ix2 r k)

/-- Row r of the noise. -/
def noiseOf (r : Fin 65536) : Fin 16 → EReal := fun a => e (ix2 r a)

/-- The sample array. -/
def actionArr : (⟨2, ![65536, 16]⟩ : Shape).Idx → EReal := fun i =>
  (netOf W1 b1 W2 b2 Wm bm Ws bs).action (rowOf x ⟨(i 0).val, idx2_lt0 i⟩) (noiseOf e ⟨(i 0).val, idx2_lt0 i⟩)
    ⟨(i 1).val, idx2_lt1 i⟩

/-- The log-density array. -/
def logpArr : (⟨2, ![65536, 1]⟩ : Shape).Idx → EReal := fun i =>
  (netOf W1 b1 W2 b2 Wm bm Ws bs).logp (rowOf x ⟨(i 0).val, idx2_lt0 i⟩) (noiseOf e ⟨(i 0).val, idx2_lt0 i⟩)

end Arrays

end Cert.Policy

end
-- ==== Proof.RefValue.lean ====
/-
  The reference computes the policy head row by row.

  Its program is read one operation at a time: a product with a transposed weight matrix at (r, j) is the sum over k
  of row r at k times the weight at (j, k); a bias broadcast along the rows at (r, j) is the bias at j; the rest is
  pointwise. So each stage at (r, ·) is the corresponding row function of row r of the observations, and the two
  results are the sample array and the log-density array.
-/
import proofs.«116604_j66838281061057_1_alg».proof.Proof.Gen.ReferenceIdeal.Read
import proofs.«116604_j66838281061057_1_alg».proof.Proof.Spec

noncomputable section

namespace Cert.Policy.Ref

open Idealize.ShloMosaic Idealize.ShloMosaic.ValueIdx Cert.ReferenceIdeal Cert.ReferenceIdeal.Read Cert.Policy

variable (x0 : FVec Ideal S65536x64 .f32) (x1 : FVec Ideal S65536x16 .f32)
  (x2 : FVec Ideal S256x64 .f32) (x3 : FVec Ideal S256 .f32)
  (x4 : FVec Ideal S256x256 .f32) (x5 : FVec Ideal S256 .f32)
  (x6 : FVec Ideal S16x256 .f32) (x7 : FVec Ideal S16 .f32)
  (x8 : FVec Ideal S16x256 .f32) (x9 : FVec Ideal S16 .f32)

/-- The first hidden layer at (r, j). -/
theorem h1_eq (r : Fin 65536) (j : Fin 256) :
    val_main_v5 (F := Ideal) x0 x2 x3 (ix2 r j) = (netOf x2 x3 x4 x5 x6 x7 x8 x9).h1 (rowOf x0 r) j := by
  rw [val_main_v5_apply, val_main_v4_apply, val_main_v1_apply, val_main_v3_apply, val_main_v2_apply,
    val_main_call0_v0_apply, val_main_call0_cst_apply]
  have e1 : ∀ k : Fin 64, lidx_main_v1 (ix2 r j) k = ix2 r k := fun k => funext fun a => Fin.ext (by match a with | ⟨0, _⟩ => rfl | ⟨1, _⟩ => rfl)
  have e2 : ∀ k : Fin 64, idx_main_v0 (ridx_main_v1 (ix2 r j) k) = ix2 j k := fun k => funext fun a => Fin.ext (by match a with | ⟨0, _⟩ => rfl | ⟨1, _⟩ => rfl)
  have e3 : idx_main_v2 (idx_main_v3 (ix2 r j)) = ix1 j := funext fun a => Fin.ext (by match a with | ⟨0, _⟩ => rfl)
  simp only [val_main_v0_apply, e1, e2, e3]
  rfl

/-- The second hidden layer at (r, j). -/
theorem h2_eq (r : Fin 65536) (j : Fin 256) :
    val_main_v11 (F := Ideal) x0 x2 x3 x4 x5 (ix2 r j) = (netOf x2 x3 x4 x5 x6 x7 x8 x9).h2 (rowOf x0 r) j := by
  rw [val_main_v11_apply, val_main_v10_apply, val_main_v7_apply, val_main_v9_apply, val_main_v8_apply,
    val_main_call1_v0_apply, val_main_call1_cst_apply]
  have e1 : ∀ k : Fin 256, lidx_main_v7 (ix2 r j) k = ix2 r k := fun k => funext fun a => Fin.ext (by match a with | ⟨0, _⟩ => rfl | ⟨1, _⟩ => rfl)
  have e2 : ∀ k : Fin 256, idx_main_v6 (ridx_main_v7 (ix2 r j) k) = ix2 j k := fun k => funext fun a => Fin.ext (by match a with | ⟨0, _⟩ => rfl | ⟨1, _⟩ => rfl)
  have e3 : idx_main_v8 (idx_main_v9 (ix2 r j)) = ix1 j := funext fun a => Fin.ext (by match a with | ⟨0, _⟩ => rfl)
  simp only [val_main_v6_apply, e1, e2, e3, h1_eq x0 x2 x3 x4 x5 x6 x7 x8 x9]
  rfl

/-- The mean head before tanh at (r, a). -/
theorem premean_eq (r : Fin 65536) (a : Fin 16) :
    val_main_v16 (F := Ideal) x0 x2 x3 x4 x5 x6 x7 (ix2 r a)
      = (∑ k : Fin 256, (netOf x2 x3 x4 x5 x6 x7 x8 x9).h2 (rowOf x0 r) k * (netOf x2 x3 x4 x5 x6 x7 x8 x9).wm a k)
        + (netOf x2 x3 x4 x5 x6 x7 x8 x9).cm a := by
  rw [val_main_v16_apply, val_main_v13_apply, val_main_v15_apply, val_main_v14_apply]
  have e1 : ∀ k : Fin 256, lidx_main_v13 (ix2 r a) k = ix2 r k := fun k => funext fun a => Fin.ext (by match a with | ⟨0, _⟩ => rfl | ⟨1, _⟩ => rfl)
  have e2 : ∀ k : Fin 256, idx_main_v12 (ridx_main_v13 (ix2 r a) k) = ix2 a k := fun k => funext fun a => Fin.ext (by match a with | ⟨0, _⟩ => rfl | ⟨1, _⟩ => rfl)
  have e3 : idx_main_v14 (idx_main_v15 (ix2 r a)) = ix1 a := funext fun a => Fin.ext (by match a with | ⟨0, _⟩ => rfl)
  simp only [val_main_v12_apply, e1, e2, e3, h2_eq x0 x2 x3 x4 x5 x6 x7 x8 x9]
  rfl

/-- The mean at (r, a). -/
theorem mean_eq (r : Fin 65536) (a : Fin 16) :
    val_main_v25 (F := Ideal) x0 x2 x3 x4 x5 x6 x7 (ix2 r a) = (netOf x2 x3 x4 x5 x6 x7 x8 x9).mean (rowOf x0 r) a := by
  rw [val_main_v25_apply, val_main_v24_apply, val_main_cst_2_apply, val_main_v23_apply, val_main_v22_apply,
    val_main_cst_1_apply, val_main_v21_apply, val_main_v20_apply, val_main_cst_0_apply, val_main_v19_apply,
    val_main_v18_apply, val_main_cst_apply, val_main_v17_apply, premean_eq x0 x2 x3 x4 x5 x6 x7 x8 x9]
  rfl

/-- The standard-deviation head before softplus at (r, a). -/
theorem prestd_eq (r : Fin 65536) (a : Fin 16) :
    val_main_v30 (F := Ideal) x0 x2 x3 x4 x5 x8 x9 (ix2 r a)
      = (∑ k : Fin 256, (netOf x2 x3 x4 x5 x6 x7 x8 x9).h2 (rowOf x0 r) k * (netOf x2 x3 x4 x5 x6 x7 x8 x9).ws a k)
        + (netOf x2 x3 x4 x5 x6 x7 x8 x9).cs a := by
  rw [val_main_v30_apply, val_main_v27_apply, val_main_v29_apply, val_main_v28_apply]
  have e1 : ∀ k : Fin 256, lidx_main_v27 (ix2 r a) k = ix2 r k := fun k => funext fun a => Fin.ext (by match a with | ⟨0, _⟩ => rfl | ⟨1, _⟩ => rfl)
  have e2 : ∀ k : Fin 256, idx_main_v26 (ridx_main_v27 (ix2 r a) k) = ix2 a k := fun k => funext fun a => Fin.ext (by match a with | ⟨0, _⟩ => rfl | ⟨1, _⟩ => rfl)
  have e3 : idx_main_v28 (idx_main_v29 (ix2 r a)) = ix1 a := funext fun a => Fin.ext (by match a with | ⟨0, _⟩ => rfl)
  simp only [val_main_v26_apply, e1, e2, e3, h2_eq x0 x2 x3 x4 x5 x6 x7 x8 x9]
  rfl

/-- The standard deviation at (r, a). -/
theorem std_eq (r : Fin 65536) (a : Fin 16) :
    val_main_v33 (F := Ideal) x0 x2 x3 x4 x5 x8 x9 (ix2 r a) = (netOf x2 x3 x4 x5 x6 x7 x8 x9).std (rowOf x0 r) a := by
  simp only [val_main_v33_apply, val_main_v32_apply, val_main_cst_3_apply, val_main_v31_apply,
    val_main_call2_v4_apply, val_main_call2_v6_apply, val_main_call2_v11_apply, val_main_call2_v1_apply,
    val_main_call2_v10_apply, val_main_call2_v9_apply, val_main_call2_v8_apply, val_main_call2_v7_apply,
    val_main_call2_v3_apply, val_main_call2_v0_apply, val_main_call2_v2_apply, val_main_call2_v5_apply,
    val_main_call2_cst_apply, prestd_eq x0 x2 x3 x4 x5 x6 x7 x8 x9]
  exact congrArg (· + lit 0x358637BD#32) (softplus_neg _)

/-- The sample at (r, a). -/
theorem action_eq (r : Fin 65536) (a : Fin 16) :
    val_main_v35 (F := Ideal) x0 x1 x2 x3 x4 x5 x6 x7 x8 x9 (ix2 r a)
      = (netOf x2 x3 x4 x5 x6 x7 x8 x9).action (rowOf x0 r) (noiseOf x1 r) a := by
  rw [val_main_v35_apply, val_main_v34_apply, mean_eq x0 x2 x3 x4 x5 x6 x7 x8 x9, std_eq x0 x2 x3 x4 x5 x6 x7 x8 x9]
  rfl

/-- The log-density at (r, 0). -/
theorem logp_eq (r : Fin 65536) (z : Fin 1) :
    val_main_v46 (F := Ideal) x0 x1 x2 x3 x4 x5 x8 x9 (ix2 r z)
      = (netOf x2 x3 x4 x5 x6 x7 x8 x9).logp (rowOf x0 r) (noiseOf x1 r) := by
  have ei : idx_main_v46 (ix2 r z) = ix1 r := funext fun a => Fin.ext (by
    match a with | ⟨0, _⟩ => show r.val * 1 + z.val = r.val; have := z.isLt; omega)
  rw [val_main_v46_apply, ei, val_main_v45_apply, val_main_v44_apply, val_main_cst_7_apply, val_main_v43_apply,
    val_main_v42_apply, val_main_cst_6_apply, val_main_v41_apply, val_main_cst_5_apply]
  have e1 : ∀ k : Fin 16, idx_main_v41 (ix1 r) k = ix2 r k := fun k => funext fun a => Fin.ext (by match a with | ⟨0, _⟩ => rfl | ⟨1, _⟩ => rfl)
  simp only [e1, val_main_v40_apply, val_main_v36_apply, val_main_v39_apply, val_main_v38_apply,
    val_main_cst_4_apply, val_main_v37_apply, std_eq x0 x2 x3 x4 x5 x6 x7 x8 x9]
  exact congrArg (fun s => lit 0xBF000000#32 * s - lit 0x416B3F8E#32) (lit_zero_add _)

/-- The reference's first result is the sample array. -/
theorem action_arr :
    val_main_v35 (F := Ideal) x0 x1 x2 x3 x4 x5 x6 x7 x8 x9 = actionArr x0 x1 x2 x3 x4 x5 x6 x7 x8 x9 := by
  funext i
  obtain ⟨r, a, rfl⟩ : ∃ (r : Fin 65536) (a : Fin 16), i = ix2 r a := ⟨i 0, i 1, eq_ix2 i⟩
  exact action_eq x0 x1 x2 x3 x4 x5 x6 x7 x8 x9 r a

/-- The reference's second result is the log-density array. -/
theorem logp_arr :
    val_main_v46 (F := Ideal) x0 x1 x2 x3 x4 x5 x8 x9 = logpArr x0 x1 x2 x3 x4 x5 x6 x7 x8 x9 := by
  funext i
  obtain ⟨r, z, rfl⟩ : ∃ (r : Fin 65536) (z : Fin 1), i = ix2 r z := ⟨i 0, i 1, eq_ix2 i⟩
  exact logp_eq x0 x1 x2 x3 x4 x5 x6 x7 x8 x9 r z

end Cert.Policy.Ref

end
-- ==== Proof.LibMatmul.lean ====
/-
  The plain matrix product read at an index.

  For the dimension numbers of an M×K by K×N product (contract the left operand's second axis with the right operand's
  first; no batch axes), the kernel's product into a zero accumulator and the host's dot_general both read, at (p, q), the
  sum over k of the left operand at (p, k) times the right operand at (k, q).
-/
import Idealize.ShloMosaic.PureOps.Ideal.Laws
import Idealize.ShloMosaic.Lib.ValueIdx

noncomputable section

namespace Cert.Matmul

open Idealize.ShloMosaic Idealize.ShloMosaic.ValueIdx

/-- The left operand's index at output (p, q) and contraction k is (p, k). -/
theorem lhsIdx_plain {M K N : Nat} (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  refine Fin.ext ?_
  match a with
  | ⟨0, _⟩ => rfl
  | ⟨1, _⟩ => exact ((DotDims.plain M K N).lhsIdx_val_of_single rfl (ix2 p q) _).trans hk

/-- The right operand's index at output (p, q) and contraction k is (k, q). -/
theorem rhsIdx_plain {M K N : Nat} (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  refine Fin.ext ?_
  match a with
  | ⟨0, _⟩ => exact ((DotDims.plain M K N).rhsIdx_val_of_single rfl (ix2 p q) _).trans hk
  | ⟨1, _⟩ => rfl

/-- THE KERNEL'S PRODUCT INTO THE ZERO CONSTANT, READ AT (p, q). -/
theorem matmul_plain_apply {M K N : Nat} {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  refine Finset.sum_congr rfl fun k _ => ?_
  rw [lhsIdx_plain, rhsIdx_plain]

/-- THE HOST'S dot_general, READ AT (p, q). -/
theorem dotGeneral_plain_apply {M K N : Nat} {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  refine Finset.sum_congr rfl fun k _ => ?_
  rw [lhsIdx_plain, rhsIdx_plain]

end Cert.Matmul

end
-- ==== Proof.LibDense.lean ====
/-
  A linear layer, a ReLU layer and a row sum, read at an index.

  For an M×K matrix l, a K×N matrix r and a 1×N row b: the product l · r into a zero accumulator plus b broadcast
  along the rows reads, at (p, q), the sum over k of l (p, k) · r (k, q), plus b (0, q); followed by a maximum with the
  zero splat it is the ReLU of that. The sum of an [a, b] array along its second axis reads, at p, the sum over k of the
  entry (p, k); an [a] array viewed as a column [a, 1] reads, at (i, ·), the entry i.
-/
import proofs.«116604_j66838281061057_1_alg».proof.Proof.LibMatmul
import Idealize.ShloMosaic.PureOps.Ideal.Laws
import Idealize.ShloMosaic.Lib.ValueIdx
import Idealize.ShloMosaic.Lib.ValueLayout
import Idealize.ShloMosaic.Lib.Pipeline.Value

noncomputable section

namespace Cert.Dense

open Idealize.ShloMosaic Idealize.ShloMosaic.ValueIdx

/-- THE LINEAR LAYER AT (p, q): the product into the zero constant plus the row bias broadcast along the rows. -/
theorem linear_apply {M K N : Nat} {φ₁ φ₂ : FTy} (prec : Option ContractPrecision)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    addf (FloatOps.matmul (DotDims.plain M K N) prec l r (constant ⟨2, ![M, N]⟩ .f32 0x00000000#32))
        (broadcastTo ⟨2, ![M, N]⟩ b hb) (ix2 p q)
      = (∑ k : Fin K, l (ix2 p k) * r (ix2 k q)) + b (ix2 (0 : Fin 1) q) := by
  show FloatOps.matmul (DotDims.plain M K N) prec l r (constant ⟨2, ![M, N]⟩ .f32 0x00000000#32) (ix2 p q)
      + broadcastTo ⟨2, ![M, N]⟩ b hb (ix2 p q) = _
  rw [Cert.Matmul.matmul_plain_apply, broadcastTo_1b_ab_apply]

/-- THE RELU LAYER AT (p, q): the linear layer, then the maximum with the zero splat. -/
theorem relu_linear_apply {M K N : Nat} {φ₁ φ₂ : FTy} (prec : Option ContractPrecision)
    (l : FVec Ideal ⟨2, ![M, K]⟩ φ₁) (r : FVec Ideal ⟨2, ![K, N]⟩ φ₂) (b : FVec Ideal ⟨2, ![1, N]⟩ .f32)
    (hb : (⟨2, ![1, N]⟩ : Shape).Broadcasts ⟨2, ![M, N]⟩) (p : Fin M) (q : Fin N) :
    maximumf (addf (FloatOps.matmul (DotDims.plain M K N) prec l r (constant ⟨2, ![M, N]⟩ .f32 0x00000000#32))
        (broadcastTo ⟨2, ![M, N]⟩ b hb)) (broadcast ⟨2, ![M, N]⟩ (FloatOps.ofBits .f32 0x00000000#32)) (ix2 p q)
      = max ((∑ k : Fin K, l (ix2 p k) * r (ix2 k q)) + b (ix2 (0 : Fin 1) q)) (Ideal.ofBits .f32 0x00000000#32) :=
  congrArg (fun s => max s (Ideal.ofBits .f32 0x00000000#32)) (linear_apply prec l r b hb p q)

/-- THE SUM ALONG THE ROWS AT p: a lane reduction of an [a, b] array over its second axis. -/
theorem rowsum_apply {a b : Nat} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src 0x00000000#32 h hφ hacc (ix1 p)).trans ?_
  show ∑ k : Fin b, src (h.lift (ix1 p) k) = _
  refine Finset.sum_congr rfl fun k _ => congrArg src ?_
  funext c
  apply Fin.ext
  match c with
  | ⟨0, _⟩ => rfl
  | ⟨1, _⟩ => rfl

/-- AN [a] ARRAY VIEWED AS A COLUMN [a, 1] reads, at (i, u), the entry i, whatever the unit coordinate u. -/
theorem shapeCast_a_a1_apply {α : Type} {a : Nat} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.Dense

end
-- ==== Proof.BlockValue.lean ====
/-
  One grid point's body computes the policy head on its block of rows.

  The body reads a block of 2048 rows of the observations and of the noise, and the whole weights: each weight block is
  stored (input unit, output unit) and each bias as a one-row block. Its two stored values, read at row p of the block,
  are the sample and the log-density of row p: the row functions of the network those weight blocks hold.
-/
import proofs.«116604_j66838281061057_1_alg».proof.Proof.Gen.KernelIdeal.Skeleton
import proofs.«116604_j66838281061057_1_alg».proof.Proof.Spec
import proofs.«116604_j66838281061057_1_alg».proof.Proof.LibDense

noncomputable section

namespace Cert.Policy.Block

open Idealize.ShloMosaic Idealize.ShloMosaic.TcCoe Idealize.ShloMosaic.ValueIdx Cert.KernelIdeal Cert.KernelIdeal.Gen
open Cert.Policy

variable (X0 : FVec Ideal S2048x64 .f32) (E : FVec Ideal S2048x16 .f32)
  (A1 : FVec Ideal S64x256 .bf16) (B1 : FVec Ideal S1x256 .f32)
  (A2 : FVec Ideal S256x256 .bf16) (B2 : FVec Ideal S1x256 .f32)
  (A3 : FVec Ideal S256x16 .bf16) (B3 : FVec Ideal S1x16 .f32)
  (A4 : FVec Ideal S256x16 .bf16) (B4 : FVec Ideal S1x16 .f32)

/-- The network the weight blocks hold. -/
def blockNet : Net where
  w1 j k := A1 (ix2 k j)
  c1 j := B1 (ix2 (0 : Fin 1) j)
  w2 j k := A2 (ix2 k j)
  c2 j := B2 (ix2 (0 : Fin 1) j)
  wm a k := A3 (ix2 k a)
  cm a := B3 (ix2 (0 : Fin 1) a)
  ws a k := A4 (ix2 k a)
  cs a := B4 (ix2 (0 : Fin 1) a)

/-- Row p of the observation block. -/
def blockRow (p : Fin 2048) : Fin 64 → EReal := fun k => X0 (ix2 p k)

/-- Row p of the noise block. -/
def blockNoise (p : Fin 2048) : Fin 16 → EReal := fun a => E (ix2 p a)

/-- The second hidden layer of row p. -/
theorem hidden2_eq (p : Fin 2048) (j : Fin 256) :
    k0_pay1 (F := Ideal) X0 A1 B1 A2 B2 (ix2 p j) = (blockNet A1 B1 A2 B2 A3 B3 A4 B4).h2 (blockRow X0 p) j := by
  unfold k0_pay1
  simp only [shapeCast_self]
  rw [truncf_apply]
  refine (Cert.Dense.relu_linear_apply none _ A2 B2 _ p j).trans ?_
  refine congrArg (fun s => max (s + B2 (ix2 (0 : Fin 1) j)) (lit 0x00000000#32)) (Finset.sum_congr rfl fun k _ => ?_)
  refine congrArg (· * A2 (ix2 k j)) ?_
  rw [truncf_apply]
  exact Cert.Dense.relu_linear_apply none _ A1 B1 _ p k

/-- Half of (tanh of the mean head, plus one), at row p. -/
theorem halfmean_eq (p : Fin 2048) (a : Fin 16) :
    k0_pay2 (F := Ideal) X0 A1 B1 A2 B2 A3 B3 (ix2 p a)
      = lit 0x3F000000#32 * (Ideal.tanh ((∑ k : Fin 256, (blockNet A1 B1 A2 B2 A3 B3 A4 B4).h2 (blockRow X0 p) k
          * (blockNet A1 B1 A2 B2 A3 B3 A4 B4).wm a k) + (blockNet A1 B1 A2 B2 A3 B3 A4 B4).cm a) + lit 0x3F800000#32) := by
  unfold k0_pay2
  simp only [shapeCast_self]
  refine congrArg (fun z => lit 0x3F000000#32 * (Ideal.tanh z + lit 0x3F800000#32)) ?_
  refine (Cert.Dense.linear_apply none _ A3 B3 _ p a).trans ?_
  refine congrArg (· + B3 (ix2 (0 : Fin 1) a)) (Finset.sum_congr rfl fun k _ => congrArg (· * A3 (ix2 k a)) ?_)
  exact hidden2_eq X0 A1 B1 A2 B2 A3 B3 A4 B4 p k

/-- The standard deviation over any second hidden layer V, at row p. -/
theorem std_of (V : FVec Ideal S2048x256 .bf16) (p : Fin 2048) (a : Fin 16) :
    k0_pay3 (F := Ideal) V A4 B4 (ix2 p a)
      = softplus ((∑ k : Fin 256, V (ix2 p k) * A4 (ix2 k a)) + B4 (ix2 (0 : Fin 1) a)) + lit 0x358637BD#32 := by
  unfold k0_pay3
  simp only [shapeCast_self]
  refine (congrArg (· + lit 0x358637BD#32) (softplus_sub _)).trans ?_
  exact congrArg (fun z => softplus z + lit 0x358637BD#32) (Cert.Dense.linear_apply none V A4 B4 _ p a)

/-- The standard deviation of row p. -/
theorem std_eq (p : Fin 2048) (a : Fin 16) :
    k0_pay3 (F := Ideal) (k0_pay1 (F := Ideal) X0 A1 B1 A2 B2) A4 B4 (ix2 p a) = (blockNet A1 B1 A2 B2 A3 B3 A4 B4).std (blockRow X0 p) a := by
  rw [std_of]
  simp only [hidden2_eq X0 A1 B1 A2 B2 A3 B3 A4 B4]
  rfl

/-- The sample of row p. -/
theorem action_eq (p : Fin 2048) (a : Fin 16) :
    k0_pay4 (F := Ideal) E (k0_pay1 (F := Ideal) X0 A1 B1 A2 B2) (k0_pay2 (F := Ideal) X0 A1 B1 A2 B2 A3 B3) (Scalar.ofBits .f32 0x40000000#32) A4 B4 (ix2 p a)
      = (blockNet A1 B1 A2 B2 A3 B3 A4 B4).action (blockRow X0 p) (blockNoise E p) a := by
  unfold k0_pay4
  show (lit 0xBF800000#32 + k0_pay2 (F := Ideal) X0 A1 B1 A2 B2 A3 B3 (ix2 p a) * lit 0x40000000#32)
      + k0_pay3 (F := Ideal) (k0_pay1 (F := Ideal) X0 A1 B1 A2 B2) A4 B4 (ix2 p a) * E (ix2 p a) = _
  rw [halfmean_eq X0 A1 B1 A2 B2 A3 B3 A4 B4, std_eq X0 A1 B1 A2 B2 A3 B3 A4 B4]
  rfl

/-- The log-density of row p. -/
theorem logp_eq (p : Fin 2048) (z : Fin 1) :
    k0_pay5 (F := Ideal) E (k0_pay1 (F := Ideal) X0 A1 B1 A2 B2) A4 B4 (ix2 p z) = (blockNet A1 B1 A2 B2 A3 B3 A4 B4).logp (blockRow X0 p) (blockNoise E p) := by
  unfold k0_pay5
  refine congrArg (fun s => lit 0xBF000000#32 * s - lit 0x416B3F8E#32) ?_
  refine (Cert.Dense.shapeCast_a_a1_apply _ _ p z).trans ?_
  refine (Cert.Dense.rowsum_apply _ _ _ _ p).trans ?_
  refine Finset.sum_congr rfl fun a _ => ?_
  show E (ix2 p a) * E (ix2 p a) + lit 0x40000000#32 * Ideal.log (k0_pay3 (F := Ideal) (k0_pay1 (F := Ideal) X0 A1 B1 A2 B2) A4 B4 (ix2 p a)) = _
  rw [std_eq X0 A1 B1 A2 B2 A3 B3 A4 B4]
  rfl

/-! ## A block of rows against the whole arrays

The observation and noise blocks of point number t are rows 2048 t … 2048 t + 2047 of the arrays; its weight blocks are the weight
matrices transposed and the biases as one-row arrays. Then the point's network is the arrays' network and row p of the
block is row 2048 t + p of the arrays, so what the point stores at (p, ·) is the arrays' sample and log-density there. -/

section Point

variable (x : FVec Ideal S65536x64 .f32) (e : FVec Ideal S65536x16 .f32)
  (W1 : FVec Ideal S256x64 .f32) (b1 : FVec Ideal S256 .f32)
  (W2 : FVec Ideal S256x256 .f32) (b2 : FVec Ideal S256 .f32)
  (Wm : FVec Ideal S16x256 .f32) (bm : FVec Ideal S16 .f32)
  (Ws : FVec Ideal S16x256 .f32) (bs : FVec Ideal S16 .f32)

/-- The weight blocks hold the arrays' network. -/
theorem blockNet_eq
    (h1 : ∀ (k : Fin 64) (j : Fin 256), A1 (ix2 k j) = W1 (ix2 j k)) (c1 : ∀ j : Fin 256, B1 (ix2 (0 : Fin 1) j) = b1 (ix1 j))
    (h2 : ∀ (k : Fin 256) (j : Fin 256), A2 (ix2 k j) = W2 (ix2 j k)) (c2 : ∀ j : Fin 256, B2 (ix2 (0 : Fin 1) j) = b2 (ix1 j))
    (h3 : ∀ (k : Fin 256) (a : Fin 16), A3 (ix2 k a) = Wm (ix2 a k)) (c3 : ∀ a : Fin 16, B3 (ix2 (0 : Fin 1) a) = bm (ix1 a))
    (h4 : ∀ (k : Fin 256) (a : Fin 16), A4 (ix2 k a) = Ws (ix2 a k)) (c4 : ∀ a : Fin 16, B4 (ix2 (0 : Fin 1) a) = bs (ix1 a)) :
    blockNet A1 B1 A2 B2 A3 B3 A4 B4 = netOf W1 b1 W2 b2 Wm bm Ws bs := by
  simp only [blockNet, netOf, h1, c1, h2, c2, h3, c3, h4, c4]

/-- What the point stores into the sample block at y is the sample array at the array index i that y covers. -/
theorem point_action (tv : Nat)
    (hx : ∀ (p : Fin 2048) (k : Fin 64) (r : Fin 65536), r.val = 2048 * tv + p.val → X0 (ix2 p k) = x (ix2 r k))
    (he : ∀ (p : Fin 2048) (a : Fin 16) (r : Fin 65536), r.val = 2048 * tv + p.val → E (ix2 p a) = e (ix2 r a))
    (h1 : ∀ (k : Fin 64) (j : Fin 256), A1 (ix2 k j) = W1 (ix2 j k)) (c1 : ∀ j : Fin 256, B1 (ix2 (0 : Fin 1) j) = b1 (ix1 j))
    (h2 : ∀ (k : Fin 256) (j : Fin 256), A2 (ix2 k j) = W2 (ix2 j k)) (c2 : ∀ j : Fin 256, B2 (ix2 (0 : Fin 1) j) = b2 (ix1 j))
    (h3 : ∀ (k : Fin 256) (a : Fin 16), A3 (ix2 k a) = Wm (ix2 a k)) (c3 : ∀ a : Fin 16, B3 (ix2 (0 : Fin 1) a) = bm (ix1 a))
    (h4 : ∀ (k : Fin 256) (a : Fin 16), A4 (ix2 k a) = Ws (ix2 a k)) (c4 : ∀ a : Fin 16, B4 (ix2 (0 : Fin 1) a) = bs (ix1 a))
    (y : S2048x16.Idx) (i : S65536x16.Idx) (hi0 : (i 0).val = 2048 * tv + (y 0).val) (hi1 : (i 1).val = (y 1).val) :
    k0_pay4 (F := Ideal) E (k0_pay1 X0 A1 B1 A2 B2) (k0_pay2 X0 A1 B1 A2 B2 A3 B3) (Scalar.ofBits .f32 0x40000000#32) A4 B4 y
      = actionArr x e W1 b1 W2 b2 Wm bm Ws bs i := by
  obtain ⟨p, a, rfl⟩ : ∃ (p : Fin 2048) (a : Fin 16), y = ix2 p a := ⟨y 0, y 1, eq_ix2 y⟩
  rw [action_eq, blockNet_eq A1 B1 A2 B2 A3 B3 A4 B4 W1 b1 W2 b2 Wm bm Ws bs h1 c1 h2 c2 h3 c3 h4 c4]
  have hr : blockRow X0 p = rowOf x ⟨(i 0).val, idx2_lt0 i⟩ := funext fun k => hx p k _ hi0
  have hn : blockNoise E p = noiseOf e ⟨(i 0).val, idx2_lt0 i⟩ := funext fun a' => he p a' _ hi0
  have ha : a = ⟨(i 1).val, idx2_lt1 i⟩ := Fin.ext hi1.symm
  rw [hr, hn, ha]
  rfl

/-- What the point stores into the log-density block at y is the log-density array at the array index i that y covers. -/
theorem point_logp (tv : Nat)
    (hx : ∀ (p : Fin 2048) (k : Fin 64) (r : Fin 65536), r.val = 2048 * tv + p.val → X0 (ix2 p k) = x (ix2 r k))
    (he : ∀ (p : Fin 2048) (a : Fin 16) (r : Fin 65536), r.val = 2048 * tv + p.val → E (ix2 p a) = e (ix2 r a))
    (h1 : ∀ (k : Fin 64) (j : Fin 256), A1 (ix2 k j) = W1 (ix2 j k)) (c1 : ∀ j : Fin 256, B1 (ix2 (0 : Fin 1) j) = b1 (ix1 j))
    (h2 : ∀ (k : Fin 256) (j : Fin 256), A2 (ix2 k j) = W2 (ix2 j k)) (c2 : ∀ j : Fin 256, B2 (ix2 (0 : Fin 1) j) = b2 (ix1 j))
    (h3 : ∀ (k : Fin 256) (a : Fin 16), A3 (ix2 k a) = Wm (ix2 a k)) (c3 : ∀ a : Fin 16, B3 (ix2 (0 : Fin 1) a) = bm (ix1 a))
    (h4 : ∀ (k : Fin 256) (a : Fin 16), A4 (ix2 k a) = Ws (ix2 a k)) (c4 : ∀ a : Fin 16, B4 (ix2 (0 : Fin 1) a) = bs (ix1 a))
    (y : S2048x1.Idx) (i : S65536x1.Idx) (hi0 : (i 0).val = 2048 * tv + (y 0).val) :
    k0_pay5 (F := Ideal) E (k0_pay1 X0 A1 B1 A2 B2) A4 B4 y = logpArr x e W1 b1 W2 b2 Wm bm Ws bs i := by
  obtain ⟨p, z, rfl⟩ : ∃ (p : Fin 2048) (z : Fin 1), y = ix2 p z := ⟨y 0, y 1, eq_ix2 y⟩
  rw [logp_eq X0 E A1 B1 A2 B2 A3 B3 A4 B4, blockNet_eq A1 B1 A2 B2 A3 B3 A4 B4 W1 b1 W2 b2 Wm bm Ws bs h1 c1 h2 c2 h3 c3 h4 c4]
  have hr : blockRow X0 p = rowOf x ⟨(i 0).val, idx2_lt0 i⟩ := funext fun k => hx p k _ hi0
  have hn : blockNoise E p = noiseOf e ⟨(i 0).val, idx2_lt0 i⟩ := funext fun a' => he p a' _ hi0
  rw [hr, hn]
  rfl

end Point

end Cert.Policy.Block

end
-- ==== Proof.KernelValue.lean ====
/-
  The kernel's two result arrays are the sample array and the log-density array.

  The grid has 32 points; point t reads rows 2048 t … 2048 t + 2047 of the observations and of the noise and the whole
  weights — which the host code before the call has transposed, and whose biases it has reshaped to one-row arrays — and
  writes back rows 2048 t … 2048 t + 2047 of both results. What it writes back is its block of the sample array and of the
  log-density array, and the 32 blocks tile both arrays: after the run each result array is that array.
-/
import proofs.«116604_j66838281061057_1_alg».proof.Proof.Gen.KernelIdeal.Value
import proofs.«116604_j66838281061057_1_alg».proof.Proof.BlockValue
import Idealize.ShloMosaic.Lib.StableHlo.Run
import Idealize.ShloMosaic.Lib.ValueLayout
import Idealize.ShloMosaic.Lib.Tactic

noncomputable section

namespace Cert.Policy.Kernel

open Idealize.ShloMosaic Idealize.ShloMosaic.TcCoe Idealize.ShloMosaic.ValueIdx Idealize.SL.Sem
open Cert.KernelIdeal Cert.KernelIdeal.Gen Cert.KernelIdeal.Value Cert.Policy
open Idealize.ShloMosaic.Pipeline (Dat)

variable (m : (ℓ : Loc nD τ sig) → Buf (Elt Ideal) ℓ) (ρ : Dev nD → PrngReg)

theorem hz : (![0, 0] : Fin 2 → Nat) = fun _ => 0 := funext fun a => by fin_cases a <;> rfl

/-- The index maps over the grid: the observation, noise and result windows move with the point along the rows; the
    weight and bias windows stay at block (0, 0). -/
theorem idx_facts : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_10.index t (0 : Fin 2) = t.val
    ∧ win0_10.index t (1 : Fin 2) = 0
    ∧ win0_11.index t (0 : Fin 2) = t.val
    ∧ win0_11.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0 :=
  (by decide +kernel : ∀ t : Fin grid0.N, _)

/-- The sample array of the arguments as launched. -/
abbrev sampleOf (c : Dev nD) : S65536x16.Idx → EReal :=
  actionArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-- The log-density array of the arguments as launched. -/
abbrev logpOf (c : Dev nD) : S65536x1.Idx → EReal :=
  logpArr (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9))

/-! ## The arrays the host code wrote before the call -/

/-- The weight array window 2 stages: the argument transposed (the change of float format is the identity). -/
theorem V_w1 (c : Dev nD) : (V m c main_v1 : S64x256.Idx → EReal)
    = truncf (F := Ideal) .bf16 (transpose S64x256 [1, 0] ((m ((c : Thread nD τ).loc main_arg2)) : FVec Ideal S256x64 .f32) transposes_S256x64_S64x256_1_0) bitsLt_bf16_f32 := by
  dsimp only [Gen.V, Gen.hostOps0]; after_results

/-- The weight array window 4 stages: the argument transposed (the change of float format is the identity). -/
theorem V_w2 (c : Dev nD) : (V m c main_v3 : S256x256.Idx → EReal)
    = truncf (F := Ideal) .bf16 (transpose S256x256 [1, 0] ((m ((c : Thread nD τ).loc main_arg4)) : FVec Ideal S256x256 .f32) transposes_S256x256_S256x256_1_0) bitsLt_bf16_f32 := by
  dsimp only [Gen.V, Gen.hostOps0]; after_results

/-- The weight array window 6 stages: the argument transposed (the change of float format is the identity). -/
theorem V_wm (c : Dev nD) : (V m c main_v5 : S256x16.Idx → EReal)
    = truncf (F := Ideal) .bf16 (transpose S256x16 [1, 0] ((m ((c : Thread nD τ).loc main_arg6)) : FVec Ideal S16x256 .f32) transposes_S16x256_S256x16_1_0) bitsLt_bf16_f32 := by
  dsimp only [Gen.V, Gen.hostOps0]; after_results

/-- The weight array window 8 stages: the argument transposed (the change of float format is the identity). -/
theorem V_ws (c : Dev nD) : (V m c main_v7 : S256x16.Idx → EReal)
    = truncf (F := Ideal) .bf16 (transpose S256x16 [1, 0] ((m ((c : Thread nD τ).loc main_arg8)) : FVec Ideal S16x256 .f32) transposes_S16x256_S256x16_1_0) bitsLt_bf16_f32 := by
  dsimp only [Gen.V, Gen.hostOps0]; after_results

/-- The bias array window 3 stages: the argument as one row. -/
theorem V_b1 (c : Dev nD) : (V m c main_v8 : S1x256.Idx → EReal)
    = shapeCast S1x256 ((m ((c : Thread nD τ).loc main_arg3)) : FVec Ideal S256 .f32) shapeCasts_S256_S1x256 := by
  dsimp only [Gen.V, Gen.hostOps0]; after_results; rfl

/-- The bias array window 5 stages: the argument as one row. -/
theorem V_b2 (c : Dev nD) : (V m c main_v9 : S1x256.Idx → EReal)
    = shapeCast S1x256 ((m ((c : Thread nD τ).loc main_arg5)) : FVec Ideal S256 .f32) shapeCasts_S256_S1x256 := by
  dsimp only [Gen.V, Gen.hostOps0]; after_results; rfl

/-- The bias array window 7 stages: the argument as one row. -/
theorem V_bm (c : Dev nD) : (V m c main_v10 : S1x16.Idx → EReal)
    = shapeCast S1x16 ((m ((c : Thread nD τ).loc main_arg7)) : FVec Ideal S16 .f32) shapeCasts_S16_S1x16 := by
  dsimp only [Gen.V, Gen.hostOps0]; after_results; rfl

/-- The bias array window 9 stages: the argument as one row. -/
theorem V_bs (c : Dev nD) : (V m c main_v11 : S1x16.Idx → EReal)
    = shapeCast S1x16 ((m ((c : Thread nD τ).loc main_arg9)) : FVec Ideal S16 .f32) shapeCasts_S16_S1x16 := by
  dsimp only [Gen.V, Gen.hostOps0]; after_results; rfl

/-! ## Each window's block at a point, as entries of the arguments -/

/-- Window 0's block at point t is rows 2048 t … of its array. -/
theorem blk0 (c : Dev nD) (t : Fin cfg0.N) (p : Fin 2048) (k : Fin 64) (r : Fin 65536) (hr : r.val = 2048 * t.val + p.val) :
    (iblk m c 0 t : FVec Ideal S2048x64 .f32) (ix2 p k) = ((m ((c : Thread nD τ).loc main_arg0)) : FVec Ideal S65536x64 .f32) (ix2 r k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  show V m c main_arg0 _ = _
  rw [V_main_arg0]
  refine congrArg _ ?_
  funext a
  apply Fin.ext
  match a with
  | ⟨0, _⟩ => show win0_0.index t (0 : Fin 2) * 2048 + 1 * p.val = r.val; rw [f0_0, hr]; omega
  | ⟨1, _⟩ => show win0_0.index t (1 : Fin 2) * 64 + 1 * k.val = k.val; rw [f0_1]; omega

/-- Window 1's block at point t is rows 2048 t … of its array. -/
theorem blk1 (c : Dev nD) (t : Fin cfg0.N) (p : Fin 2048) (k : Fin 16) (r : Fin 65536) (hr : r.val = 2048 * t.val + p.val) :
    (iblk m c 1 t : FVec Ideal S2048x16 .f32) (ix2 p k) = ((m ((c : Thread nD τ).loc main_arg1)) : FVec Ideal S65536x16 .f32) (ix2 r k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  show V m c main_arg1 _ = _
  rw [V_main_arg1]
  refine congrArg _ ?_
  funext a
  apply Fin.ext
  match a with
  | ⟨0, _⟩ => show win0_1.index t (0 : Fin 2) * 2048 + 1 * p.val = r.val; rw [f1_0, hr]; omega
  | ⟨1, _⟩ => show win0_1.index t (1 : Fin 2) * 16 + 1 * k.val = k.val; rw [f1_1]; omega

/-- Window 2's block is the whole transposed weight matrix: at (k, j) the argument at (j, k). -/
theorem blk2 (c : Dev nD) (t : Fin cfg0.N) (k : Fin 64) (j : Fin 256) :
    (iblk m c 2 t : FVec Ideal S64x256 .bf16) (ix2 k j) = ((m ((c : Thread nD τ).loc main_arg2)) : FVec Ideal S256x64 .f32) (ix2 j k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 2).blk t).view.emb (ix2 k j) = (ix2 k j : S64x256.Idx) := by
    funext a
    apply Fin.ext
    match a with
    | ⟨0, _⟩ => show win0_2.index t (0 : Fin 2) * 64 + 1 * k.val = k.val; rw [f2_0]; omega
    | ⟨1, _⟩ => show win0_2.index t (1 : Fin 2) * 256 + 1 * j.val = j.val; rw [f2_1]; omega
  refine (congrArg (V m c main_v1 : S64x256.Idx → EReal) hemb).trans ?_
  rw [V_w1, truncf_apply]
  exact transpose_ix2_apply _ _ k j

/-- Window 4's block is the whole transposed weight matrix: at (k, j) the argument at (j, k). -/
theorem blk4 (c : Dev nD) (t : Fin cfg0.N) (k : Fin 256) (j : Fin 256) :
    (iblk m c 4 t : FVec Ideal S256x256 .bf16) (ix2 k j) = ((m ((c : Thread nD τ).loc main_arg4)) : FVec Ideal S256x256 .f32) (ix2 j k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 4).blk t).view.emb (ix2 k j) = (ix2 k j : S256x256.Idx) := by
    funext a
    apply Fin.ext
    match a with
    | ⟨0, _⟩ => show win0_4.index t (0 : Fin 2) * 256 + 1 * k.val = k.val; rw [f4_0]; omega
    | ⟨1, _⟩ => show win0_4.index t (1 : Fin 2) * 256 + 1 * j.val = j.val; rw [f4_1]; omega
  refine (congrArg (V m c main_v3 : S256x256.Idx → EReal) hemb).trans ?_
  rw [V_w2, truncf_apply]
  exact transpose_ix2_apply _ _ k j

/-- Window 6's block is the whole transposed weight matrix: at (k, j) the argument at (j, k). -/
theorem blk6 (c : Dev nD) (t : Fin cfg0.N) (k : Fin 256) (j : Fin 16) :
    (iblk m c 6 t : FVec Ideal S256x16 .bf16) (ix2 k j) = ((m ((c : Thread nD τ).loc main_arg6)) : FVec Ideal S16x256 .f32) (ix2 j k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 6).blk t).view.emb (ix2 k j) = (ix2 k j : S256x16.Idx) := by
    funext a
    apply Fin.ext
    match a with
    | ⟨0, _⟩ => show win0_6.index t (0 : Fin 2) * 256 + 1 * k.val = k.val; rw [f6_0]; omega
    | ⟨1, _⟩ => show win0_6.index t (1 : Fin 2) * 16 + 1 * j.val = j.val; rw [f6_1]; omega
  refine (congrArg (V m c main_v5 : S256x16.Idx → EReal) hemb).trans ?_
  rw [V_wm, truncf_apply]
  exact transpose_ix2_apply _ _ k j

/-- Window 8's block is the whole transposed weight matrix: at (k, j) the argument at (j, k). -/
theorem blk8 (c : Dev nD) (t : Fin cfg0.N) (k : Fin 256) (j : Fin 16) :
    (iblk m c 8 t : FVec Ideal S256x16 .bf16) (ix2 k j) = ((m ((c : Thread nD τ).loc main_arg8)) : FVec Ideal S16x256 .f32) (ix2 j k) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 8).blk t).view.emb (ix2 k j) = (ix2 k j : S256x16.Idx) := by
    funext a
    apply Fin.ext
    match a with
    | ⟨0, _⟩ => show win0_8.index t (0 : Fin 2) * 256 + 1 * k.val = k.val; rw [f8_0]; omega
    | ⟨1, _⟩ => show win0_8.index t (1 : Fin 2) * 16 + 1 * j.val = j.val; rw [f8_1]; omega
  refine (congrArg (V m c main_v7 : S256x16.Idx → EReal) hemb).trans ?_
  rw [V_ws, truncf_apply]
  exact transpose_ix2_apply _ _ k j

/-- Window 3's block is the whole one-row bias array: at (0, j) the argument at j. -/
theorem blk3 (c : Dev nD) (t : Fin cfg0.N) (j : Fin 256) :
    (iblk m c 3 t : FVec Ideal S1x256 .f32) (ix2 (0 : Fin 1) j) = ((m ((c : Thread nD τ).loc main_arg3)) : FVec Ideal S256 .f32) (ix1 j) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 3).blk t).view.emb (ix2 (0 : Fin 1) j) = (ix2 (0 : Fin 1) j : S1x256.Idx) := by
    funext a
    apply Fin.ext
    match a with
    | ⟨0, _⟩ => show win0_3.index t (0 : Fin 2) * 1 + 1 * 0 = 0; rw [f3_0]
    | ⟨1, _⟩ => show win0_3.index t (1 : Fin 2) * 256 + 1 * j.val = j.val; rw [f3_1]; omega
  refine (congrArg (V m c main_v8 : S1x256.Idx → EReal) hemb).trans ?_
  rw [V_b1]
  exact shapeCast_a_1a_apply _ _ 0 j

/-- Window 5's block is the whole one-row bias array: at (0, j) the argument at j. -/
theorem blk5 (c : Dev nD) (t : Fin cfg0.N) (j : Fin 256) :
    (iblk m c 5 t : FVec Ideal S1x256 .f32) (ix2 (0 : Fin 1) j) = ((m ((c : Thread nD τ).loc main_arg5)) : FVec Ideal S256 .f32) (ix1 j) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 5).blk t).view.emb (ix2 (0 : Fin 1) j) = (ix2 (0 : Fin 1) j : S1x256.Idx) := by
    funext a
    apply Fin.ext
    match a with
    | ⟨0, _⟩ => show win0_5.index t (0 : Fin 2) * 1 + 1 * 0 = 0; rw [f5_0]
    | ⟨1, _⟩ => show win0_5.index t (1 : Fin 2) * 256 + 1 * j.val = j.val; rw [f5_1]; omega
  refine (congrArg (V m c main_v9 : S1x256.Idx → EReal) hemb).trans ?_
  rw [V_b2]
  exact shapeCast_a_1a_apply _ _ 0 j

/-- Window 7's block is the whole one-row bias array: at (0, j) the argument at j. -/
theorem blk7 (c : Dev nD) (t : Fin cfg0.N) (j : Fin 16) :
    (iblk m c 7 t : FVec Ideal S1x16 .f32) (ix2 (0 : Fin 1) j) = ((m ((c : Thread nD τ).loc main_arg7)) : FVec Ideal S16 .f32) (ix1 j) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 7).blk t).view.emb (ix2 (0 : Fin 1) j) = (ix2 (0 : Fin 1) j : S1x16.Idx) := by
    funext a
    apply Fin.ext
    match a with
    | ⟨0, _⟩ => show win0_7.index t (0 : Fin 2) * 1 + 1 * 0 = 0; rw [f7_0]
    | ⟨1, _⟩ => show win0_7.index t (1 : Fin 2) * 16 + 1 * j.val = j.val; rw [f7_1]; omega
  refine (congrArg (V m c main_v10 : S1x16.Idx → EReal) hemb).trans ?_
  rw [V_bm]
  exact shapeCast_a_1a_apply _ _ 0 j

/-- Window 9's block is the whole one-row bias array: at (0, j) the argument at j. -/
theorem blk9 (c : Dev nD) (t : Fin cfg0.N) (j : Fin 16) :
    (iblk m c 9 t : FVec Ideal S1x16 .f32) (ix2 (0 : Fin 1) j) = ((m ((c : Thread nD τ).loc main_arg9)) : FVec Ideal S16 .f32) (ix1 j) := by
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  unfold iblk
  rw [View.read_apply]
  have hemb : ((cfg0.win 9).blk t).view.emb (ix2 (0 : Fin 1) j) = (ix2 (0 : Fin 1) j : S1x16.Idx) := by
    funext a
    apply Fin.ext
    match a with
    | ⟨0, _⟩ => show win0_9.index t (0 : Fin 2) * 1 + 1 * 0 = 0; rw [f9_0]
    | ⟨1, _⟩ => show win0_9.index t (1 : Fin 2) * 16 + 1 * j.val = j.val; rw [f9_1]; omega
  refine (congrArg (V m c main_v11 : S1x16.Idx → EReal) hemb).trans ?_
  rw [V_bs]
  exact shapeCast_a_1a_apply _ _ 0 j

/-! ## What a point writes back -/

/-- Point t writes back block t of the sample array. -/
theorem flushed10_eq (c : Dev nD) (t : Fin cfg0.N) :
    (dats m 0 c).flushed 10 t = ((cfg0.win 10).blk t).view.read (Elt Ideal) (sampleOf m c) := by
  rw [flushed10]
  unfold out0_10
  rw [View.canon_unit_zero hz]
  simp only [View.ld_unit_zero (S := S2048x64) hz, View.ld_unit_zero (S := S2048x16) hz, View.ld_unit_zero (S := S64x256) hz,
    View.ld_unit_zero (S := S1x256) hz, View.ld_unit_zero (S := S256x256) hz, View.ld_unit_zero (S := S256x16) hz,
    View.ld_unit_zero (S := S1x16) hz]
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  funext y
  show k0_pay4 (F := Ideal) (iblk m c 1 t) (k0_pay1 (iblk m c 0 t) (iblk m c 2 t) (iblk m c 3 t) (iblk m c 4 t) (iblk m c 5 t)) (k0_pay2 (iblk m c 0 t) (iblk m c 2 t) (iblk m c 3 t) (iblk m c 4 t) (iblk m c 5 t) (iblk m c 6 t) (iblk m c 7 t))
      (Scalar.ofBits .f32 0x40000000#32) (iblk m c 8 t) (iblk m c 9 t) y
    = sampleOf m c (((cfg0.win 10).blk t).view.emb y)
  refine Block.point_action (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t.val
    (blk0 m c t) (blk1 m c t) (blk2 m c t) (blk3 m c t) (blk4 m c t) (blk5 m c t) (blk6 m c t) (blk7 m c t) (blk8 m c t) (blk9 m c t) y _ ?_ ?_
  · show win0_10.index t (0 : Fin 2) * 2048 + 1 * (y 0).val = 2048 * t.val + (y 0).val; rw [f10_0]; omega
  · show win0_10.index t (1 : Fin 2) * 16 + 1 * (y 1).val = (y 1).val; rw [f10_1]; omega

/-- Point t writes back block t of the log-density array. -/
theorem flushed11_eq (c : Dev nD) (t : Fin cfg0.N) :
    (dats m 0 c).flushed 11 t = ((cfg0.win 11).blk t).view.read (Elt Ideal) (logpOf m c) := by
  rw [flushed11]
  unfold out0_11
  rw [View.canon_unit_zero hz]
  simp only [View.ld_unit_zero (S := S2048x64) hz, View.ld_unit_zero (S := S2048x16) hz, View.ld_unit_zero (S := S64x256) hz,
    View.ld_unit_zero (S := S1x256) hz, View.ld_unit_zero (S := S256x256) hz, View.ld_unit_zero (S := S256x16) hz,
    View.ld_unit_zero (S := S1x16) hz]
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  funext y
  show k0_pay5 (F := Ideal) (iblk m c 1 t) (k0_pay1 (iblk m c 0 t) (iblk m c 2 t) (iblk m c 3 t) (iblk m c 4 t) (iblk m c 5 t)) (iblk m c 8 t) (iblk m c 9 t) y
    = logpOf m c (((cfg0.win 11).blk t).view.emb y)
  refine Block.point_logp (iblk m c 0 t) (iblk m c 1 t) (iblk m c 2 t) (iblk m c 3 t) (iblk m c 4 t) (iblk m c 5 t) (iblk m c 6 t) (iblk m c 7 t) (iblk m c 8 t) (iblk m c 9 t) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) t.val
    (blk0 m c t) (blk1 m c t) (blk2 m c t) (blk3 m c t) (blk4 m c t) (blk5 m c t) (blk6 m c t) (blk7 m c t) (blk8 m c t) (blk9 m c t) y _ ?_
  show win0_11.index t (0 : Fin 2) * 2048 + 1 * (y 0).val = 2048 * t.val + (y 0).val; rw [f11_0]; omega

/-! ## The blocks tile the result arrays -/

/-- An index of the sample array is in point t's block iff each coordinate is in the block's range. -/
theorem mem_blk10 (t : Fin cfg0.N) (i : S65536x16.Idx) :
    i ∈ ((cfg0.win 10).blk t).view.set ↔ ∀ a : Fin 2, win0_10.index t a * S2048x16.size a ≤ (i a).val
      ∧ (i a).val < win0_10.index t a * S2048x16.size a + S2048x16.size a := by
  show i ∈ ((View.whole main_v12_0).slice (win0_10.rect t)).set ↔ _
  rw [View.set_slice_whole, Rect.mem_set_unit]
  exact Iff.rfl

theorem mem_blk11 (t : Fin cfg0.N) (i : S65536x1.Idx) :
    i ∈ ((cfg0.win 11).blk t).view.set ↔ ∀ a : Fin 2, win0_11.index t a * S2048x1.size a ≤ (i a).val
      ∧ (i a).val < win0_11.index t a * S2048x1.size a + S2048x1.size a := by
  show i ∈ ((View.whole main_v12_1).slice (win0_11.rect t)).set ↔ _
  rw [View.set_slice_whole, Rect.mem_set_unit]
  exact Iff.rfl

/-- Row r of the sample array is in the block of point r / 2048. -/
theorem cover10 (i : S65536x16.Idx) :
    ∃ t : Fin cfg0.N, (cfg0.win 10).flush t = true ∧ i ∈ ((cfg0.win 10).blk t).view.set := by
  have hi0 : (i 0).val < 65536 := (i 0).isLt
  have hi1 : (i 1).val < 16 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  refine ⟨t, flush0_10 t, ?_⟩
  rw [mem_blk10]
  intro a
  match a with
  | ⟨0, _⟩ =>
    show win0_10.index t (0 : Fin 2) * 2048 ≤ (i 0).val ∧ (i 0).val < win0_10.index t (0 : Fin 2) * 2048 + 2048
    rw [f10_0, ht]; omega
  | ⟨1, _⟩ =>
    show win0_10.index t (1 : Fin 2) * 16 ≤ (i 1).val ∧ (i 1).val < win0_10.index t (1 : Fin 2) * 16 + 16
    rw [f10_1]; omega

/-- Row r of the log-density array is in the block of point r / 2048. -/
theorem cover11 (i : S65536x1.Idx) :
    ∃ t : Fin cfg0.N, (cfg0.win 11).flush t = true ∧ i ∈ ((cfg0.win 11).blk t).view.set := by
  have hi0 : (i 0).val < 65536 := (i 0).isLt
  have hi1 : (i 1).val < 1 := (i 1).isLt
  have hN : cfg0.N = 32 := N_0
  obtain ⟨t, ht⟩ : ∃ t : Fin cfg0.N, t.val = (i 0).val / 2048 := ⟨⟨(i 0).val / 2048, by rw [hN]; omega⟩, rfl⟩
  obtain ⟨f0_0, f0_1, f1_0, f1_1, f10_0, f10_1, f11_0, f11_1, f2_0, f2_1, f3_0, f3_1, f4_0, f4_1, f5_0, f5_1, f6_0, f6_1, f7_0, f7_1, f8_0, f8_1, f9_0, f9_1⟩ := idx_facts t
  refine ⟨t, flush0_11 t, ?_⟩
  rw [mem_blk11]
  intro a
  match a with
  | ⟨0, _⟩ =>
    show win0_11.index t (0 : Fin 2) * 2048 ≤ (i 0).val ∧ (i 0).val < win0_11.index t (0 : Fin 2) * 2048 + 2048
    rw [f11_0, ht]; omega
  | ⟨1, _⟩ =>
    show win0_11.index t (1 : Fin 2) * 1 ≤ (i 1).val ∧ (i 1).val < win0_11.index t (1 : Fin 2) * 1 + 1
    rw [f11_1]; omega

/-- After the run the first result array is the sample array. -/
theorem final10 (c : Dev nD) : (dats m 0 c).arrAt 10 cfg0.N = sampleOf m c :=
  (dats m 0 c).arrAt_eq_of_cover 10 (sampleOf m c) (fun t _ => flushed10_eq m c t) cover10

/-- After the run the second result array is the log-density array. -/
theorem final11 (c : Dev nD) : (dats m 0 c).arrAt 11 cfg0.N = logpOf m c :=
  (dats m 0 c).arrAt_eq_of_cover 11 (logpOf m c) (fun t _ => flushed11_eq m c t) cover11

/-- The run, read: both results at their arrays, the arguments unchanged. -/
theorem run : θ_run defs (onTc (τ := τ) (main (F := Ideal))) ⟨m, fun _ => 0, ρ⟩ fun r => ∀ c : Dev nD,
      r.2.mem ((c : Thread nD τ).loc main_v12_0) = sampleOf m c
      ∧ r.2.mem ((c : Thread nD τ).loc main_v12_1) = logpOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c => ⟨(h c).1.trans (final10 m c), (h c).2.1.trans (final11 m c), (h c).2.2⟩)
    (run_blocks m ρ)

end Cert.Policy.Kernel

end
-- ==== Proof.lean ====
/-
  A Gaussian policy head: the kernel against its reference, over the extended reals.

  Both programs send a batch of 65536 observations x ∈ ℝ^64 through two ReLU layers of width 256 and two linear heads
  of width 16. The mean is -1 + (½ · (tanh u + 1)) · 2 and the standard deviation is softplus v + ε; with noise e the
  sample is mean + std · e and its log-density is -½ · ∑ₐ (eₐ² + 2 · log stdₐ) - C. The reference does this on whole
  arrays. The kernel does it on 32 blocks of 2048 rows, against weights transposed beforehand, with products whose
  operands pass through a narrower float format (the identity on the extended reals). Each output row depends on its own
  input row only, so block by block the kernel writes the same two arrays.

  The law that joins the two sides is that a matrix product, by whichever operation, is the sum over the contracted index
  and that a sum of extended reals does not depend on the order of its terms; the two spellings of softplus differ in
  "0 - y" against "-y" and in a comparison "y ≠ y" that nothing satisfies. No step needs the inputs to be finite.
-/
import proofs.«116604_j66838281061057_1_alg».proof.Defs
import proofs.«116604_j66838281061057_1_alg».proof.Proof.Gen.Kernel
import proofs.«116604_j66838281061057_1_alg».proof.Proof.Gen.Kernel.Skeleton
import proofs.«116604_j66838281061057_1_alg».proof.Proof.Gen.Kernel.Launch
import proofs.«116604_j66838281061057_1_alg».proof.Proof.Gen.Kernel.Points
import proofs.«116604_j66838281061057_1_alg».proof.Proof.Gen.Kernel.Frame
import proofs.«116604_j66838281061057_1_alg».proof.Proof.Gen.KernelIdeal
import proofs.«116604_j66838281061057_1_alg».proof.Proof.Gen.KernelIdeal.Skeleton
import proofs.«116604_j66838281061057_1_alg».proof.Proof.Gen.KernelIdeal.Launch
import proofs.«116604_j66838281061057_1_alg».proof.Proof.Gen.KernelIdeal.Points
import proofs.«116604_j66838281061057_1_alg».proof.Proof.Gen.KernelIdeal.Frame
import proofs.«116604_j66838281061057_1_alg».proof.Proof.Gen.ReferenceIdeal
import proofs.«116604_j66838281061057_1_alg».proof.Proof.Gen.Pre_finite_inputs
import proofs.«116604_j66838281061057_1_alg».proof.Proof.Gen.KernelIdeal.Value
import proofs.«116604_j66838281061057_1_alg».proof.Proof.Gen.ReferenceIdeal.Run
import proofs.«116604_j66838281061057_1_alg».proof.Proof.Gen.ReferenceIdeal.Read
import proofs.«116604_j66838281061057_1_alg».proof.Proof.RefValue
import proofs.«116604_j66838281061057_1_alg».proof.Proof.KernelValue
import Idealize.ShloMosaic.Adequacy
import Idealize.ShloMosaic.Init

noncomputable section

namespace Cert.Proof

open Idealize.ShloMosaic Idealize.SL.Sem Cert.Kernel

/-- The kernel as printed runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The idealized reference runs and leaves its arguments unchanged: its run, with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote nothing: the idealized kernel is the kernel's own text read over the extended reals. -/
theorem preserves : Cert.preserves_Kernel_KernelIdeal := trivial

/-- From memories that agree on the arguments both programs end with the sample array and the log-density array of those
    arguments: the kernel block by block, the reference stage by stage. -/
theorem algebraic : Cert.algebraic_KernelIdeal_ReferenceIdeal := by
  intro m ρ m' ρ' _ hagree
  refine ⟨fun c => Cert.Policy.Kernel.sampleOf m c, fun c => Cert.Policy.Kernel.logpOf m c,
    Cert.Policy.Kernel.run m ρ, ?_⟩
  refine (θ_run Cert.ReferenceIdeal.defs _ _).mono (fun _ h c => ?_) (Cert.ReferenceIdeal.Value.run (F := Ideal) m' ρ')
  obtain ⟨h0, h1, hrest⟩ := h c
  obtain ⟨a0, a1, a2, a3, a4, a5, a6, a7, a8, a9⟩ := hagree c
  refine ⟨h0.trans ?_, h1.trans ?_, hrest⟩
  · rw [Cert.ReferenceIdeal.Read.val_main_v35_eq, Cert.Policy.Ref.action_arr, a0, a1, a2, a3, a4, a5, a6, a7, a8, a9]
  · rw [Cert.ReferenceIdeal.Read.val_main_v46_eq,
      Cert.Policy.Ref.logp_arr _ _ _ _ _ _ (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) _ _,
      a0, a1, a2, a3, a4, a5, a6, a7, a8, a9]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
